-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S2x128x128 : Shape := ⟨3, ![2, 128, 128]⟩
abbrev S128x64 : Shape := ⟨2, ![128, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x512 .f32) (main_arg1 : IVec S2x1600000 32) (main_arg2 : FVec F S512x128 .f32) (main_arg3 : FVec F S128 .f32) (main_arg4 : FVec F S2x128x128 .f32) (main_arg5 : FVec F S128x64 .f32) (main_arg6 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x128x128 .f32 := Host.absf main_arg4
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg5 main_arg6 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S2x128x128 : Shape := ⟨3, ![2, 128, 128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x512 : Shape := ⟨2, ![5000, 512]⟩
abbrev S5000x128 : Shape := ⟨2, ![5000, 128]⟩
abbrev S1x128 : Shape := ⟨2, ![1, 128]⟩
abbrev S1700000x128 : Shape := ⟨2, ![1700000, 128]⟩
abbrev S1x128x128 : Shape := ⟨3, ![1, 128, 128]⟩
abbrev S128x128 : Shape := ⟨2, ![128, 128]⟩
abbrev S100000x64 : Shape := ⟨2, ![100000, 64]⟩
abbrev S5000x64 : Shape := ⟨2, ![5000, 64]⟩
abbrev S1x64 : Shape := ⟨2, ![1, 64]⟩

abbrev nBuf : Space → Nat
  | .hbm => 90
  | .vmem => 26
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S2x128x128, .f32⟩
  | .hbm, ⟨5, _⟩ => ⟨S128x64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S1700000x1, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128x128, .f32⟩
  | .hbm, ⟨68, _⟩ => ⟨S128x128, .f32⟩
  | .hbm, ⟨69, _⟩ => ⟨S100000x128, .f32⟩
  | .hbm, ⟨70, _⟩ => ⟨S1700000x1, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128x128, .f32⟩
  | .hbm, ⟨87, _⟩ => ⟨S128x128, .f32⟩
  | .hbm, ⟨88, _⟩ => ⟨S100000x128, .f32⟩
  | .hbm, ⟨89, _⟩ => ⟨S100000x64, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S64, .f32⟩
  | .local _ .vmem, ⟨24, _⟩ => ⟨S5000x64, .f32⟩
  | .local _ .vmem, ⟨25, _⟩ => ⟨S5000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S2x128x128_S1x128x128_0_0_0 : S2x128x128.Slices ![0, 0, 0] S1x128x128
  shapeCasts_S1x128x128_S128x128 : S1x128x128.ShapeCasts S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x128x128_S1x128x128_1_0_0 : S2x128x128.Slices ![1, 0, 0] S1x128x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x512_S512x128_S5000x128_1_0_0_1_n_n_wf : DotDims.WF S5000x512 S512x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S2x128x128 : Shape := ⟨3, ![2, 128, 128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1x128 : Shape := ⟨2, ![1, 128]⟩
abbrev S1700000x128 : Shape := ⟨2, ![1700000, 128]⟩
abbrev S1x128x128 : Shape := ⟨3, ![1, 128, 128]⟩
abbrev S128x128 : Shape := ⟨2, ![128, 128]⟩
abbrev S100000x64 : Shape := ⟨2, ![100000, 64]⟩
abbrev S1x64 : Shape := ⟨2, ![1, 64]⟩

abbrev nBuf : Space → Nat
  | .hbm => 113
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S2x128x128, .f32⟩
  | .hbm, ⟨5, _⟩ => ⟨S128x64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S1700000x1, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x128, .f32⟩
  | .hbm, ⟨67, _⟩ => ⟨S1700000x128, .f32⟩
  | .hbm, ⟨68, _⟩ => ⟨S1700000x128, .f32⟩
  | .hbm, ⟨69, _⟩ => ⟨S_, .f32⟩
  | .hbm, ⟨70, _⟩ => ⟨S100000x128, .f32⟩
  | .hbm, ⟨71, _⟩ => ⟨S1700000x1, .i32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S1x128x128, .f32⟩
  | .hbm, ⟨81, _⟩ => ⟨S128x128, .f32⟩
  | .hbm, ⟨82, _⟩ => ⟨S100000x128, .f32⟩
  | .hbm, ⟨83, _⟩ => ⟨S1700000x1, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000x128, .f32⟩
  | .hbm, ⟨93, _⟩ => ⟨S1700000x128, .f32⟩
  | .hbm, ⟨94, _⟩ => ⟨S1700000x128, .f32⟩
  | .hbm, ⟨95, _⟩ => ⟨S_, .f32⟩
  | .hbm, ⟨96, _⟩ => ⟨S100000x128, .f32⟩
  | .hbm, ⟨97, _⟩ => ⟨S1700000x1, .i32⟩
  | .hbm, ⟨98, _⟩ => ⟨S100000x128, .f32⟩
  | .hbm, ⟨99, _⟩ => ⟨S_, .f32⟩
  | .hbm, ⟨100, _⟩ => ⟨S100000x128, .f32⟩
  | .hbm, ⟨101, _⟩ => ⟨S100000x128, .f32⟩
  | .hbm, ⟨102, _⟩ => ⟨S_, .f32⟩
  | .hbm, ⟨103, _⟩ => ⟨S100000x128, .f32⟩
  | .hbm, ⟨104, _⟩ => ⟨S100000x128, .f32⟩
  | .hbm, ⟨105, _⟩ => ⟨S100000x128, .f32⟩
  | .hbm, ⟨106, _⟩ => ⟨S1x128x128, .f32⟩
  | .hbm, ⟨107, _⟩ => ⟨S128x128, .f32⟩
  | .hbm, ⟨108, _⟩ => ⟨S100000x128, .f32⟩
  | .hbm, ⟨109, _⟩ => ⟨S100000x64, .f32⟩
  | .hbm, ⟨110, _⟩ => ⟨S1x64, .f32⟩
  | .hbm, ⟨111, _⟩ => ⟨S100000x64, .f32⟩
  | .hbm, ⟨112, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_15 : Ref sig .tc := ⟨.hbm, 99, rfl⟩
abbrev main_v71 : Ref sig .tc := ⟨.hbm, 100, rfl⟩
abbrev main_v72 : Ref sig .tc := ⟨.hbm, 101, rfl⟩
abbrev main_cst_16 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1700000x1_S1700000x128_0_1 : S1700000x1.BroadcastsInDim S1700000x128 (![0, 1] : Fin 2 → Fin S1700000x128.rank)
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x128_S100000x128_1_0_0_1_n_n_wf : DotDims.WF S100000x512 S512x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibTRef.lean ====
/-
  A typed reference's two transports cancel. A module-local function's operation reads each operand by carrying the
  buffer's contents to the value's type and writes its result by carrying it back; the value's type IS the buffer's, so a
  result read by the next operation is the value itself.
-/
import Idealize.ShloMosaic.Lib.StableHlo

namespace Idealize.ShloMosaic.StableHlo.TRef

/-- Contents carried to a buffer's own type and back are themselves. -/
theorem ofBuf_toBuf {sig : RefSig} {T : BufTy} {Val : EltTy → Type} (x : TRef sig T) (v : T.Contents Val) :
    x.ofBuf (x.toBuf v) = v := by
  obtain ⟨r, h, h2, h3⟩ := x
  subst h
  rfl

end Idealize.ShloMosaic.StableHlo.TRef
-- ==== Proof.HostStretch.lean ====
/-
  The host stretches of the kernel's program, read against the reference's stages.
  Both programs apply the same host operations around their dense stages: the edge list is cut into a source row and
  a target row, the self-loops are appended, the degrees are summed, each edge gets the weight
  rsqrt(deg[source])·rsqrt(deg[target]) (zero where the degree is zero), and each layer gathers the source rows of the
  node features, scales them by the edge weights and sums them into the target rows. Only the dense stages in between
  differ. So after a host stretch the buffers it writes hold the reference's stage values, provided the buffers it
  READS held the reference's stage values before it: each lemma here is that step for one stretch and one buffer, from
  ANY contents `Wp` before the stretch and for any float family — the two sides are the same operations of the same
  operands, and nothing is evaluated. A buffer a stretch does not write keeps its contents.
-/
import proofs.«176975_j38817914421894_1_alg».proof.Proof.Gen.KernelIdeal.Frame
import proofs.«176975_j38817914421894_1_alg».proof.Proof.RefRead
import proofs.«176975_j38817914421894_1_alg».proof.Proof.LibTRef
import Idealize.ShloMosaic.Lib.StableHlo.Run

set_option maxRecDepth 16384

noncomputable section

namespace Cert.KernelIdeal.HostStretch

open Cert.KernelIdeal Cert.KernelIdeal.Gen Cert.ReferenceIdeal.ReadP
open Idealize.ShloMosaic Idealize.ShloMosaic.TcCoe Idealize.SL.Sem Idealize.ShloMosaic.StableHlo

variable {F : FTy → Type} [FloatOps F]

/-! ## First stretch: rows, columns, degrees -/

/-- The source row with the self-loops appended. -/
theorem s1_row (Wp : Valuation τ sig (Elt F)) :
    StableHlo.after (hostOps0 (F := F)) Wp (Proc.devRef .tc main_v3) = val_main_v3 (Wp (Proc.devRef .tc main_arg1)) := by
  after_results
  rfl

/-- The target row with the self-loops appended. -/
theorem s1_col (Wp : Valuation τ sig (Elt F)) :
    StableHlo.after (hostOps0 (F := F)) Wp (Proc.devRef .tc main_v6) = val_main_v6 (Wp (Proc.devRef .tc main_arg1)) := by
  after_results
  rfl

set_option maxHeartbeats 4000000 in
/-- Which nodes have a positive degree. -/
theorem s1_degPos (Wp : Valuation τ sig (Elt F)) :
    StableHlo.after (hostOps0 (F := F)) Wp (Proc.devRef .tc main_v12) = val_main_v12 (Wp (Proc.devRef .tc main_arg1)) := by
  after_results
  rfl

set_option maxHeartbeats 4000000 in
/-- The inverse square root of the degree, the degree taken as at least one. -/
theorem s1_rsqrtDeg (Wp : Valuation τ sig (Elt F)) :
    StableHlo.after (hostOps0 (F := F)) Wp (Proc.devRef .tc main_v15) = val_main_v15 (Wp (Proc.devRef .tc main_arg1)) := by
  after_results
  rfl

/-- The zero an isolated node's weight falls back to. -/
theorem s1_zero (Wp : Valuation τ sig (Elt F)) :
    StableHlo.after (hostOps0 (F := F)) Wp (Proc.devRef .tc main_cst_3) = (val_main_cst_3 (F := F)) := by
  after_results
  rfl

/-- The first stretch writes no argument. -/
theorem s1_arg0 (Wp : Valuation τ sig (Elt F)) :
    StableHlo.after (hostOps0 (F := F)) Wp (Proc.devRef .tc main_arg0) = Wp (Proc.devRef .tc main_arg0) := by
  after_results_simp <;> rfl

/-- The first stretch writes no argument. -/
theorem s1_arg1 (Wp : Valuation τ sig (Elt F)) :
    StableHlo.after (hostOps0 (F := F)) Wp (Proc.devRef .tc main_arg1) = Wp (Proc.devRef .tc main_arg1) := by
  after_results_simp <;> rfl

/-- The first stretch writes no argument. -/
theorem s1_arg2 (Wp : Valuation τ sig (Elt F)) :
    StableHlo.after (hostOps0 (F := F)) Wp (Proc.devRef .tc main_arg2) = Wp (Proc.devRef .tc main_arg2) := by
  after_results_simp <;> rfl

/-- The first stretch writes no argument. -/
theorem s1_arg3 (Wp : Valuation τ sig (Elt F)) :
    StableHlo.after (hostOps0 (F := F)) Wp (Proc.devRef .tc main_arg3) = Wp (Proc.devRef .tc main_arg3) := by
  after_results_simp <;> rfl

/-- The first stretch writes no argument. -/
theorem s1_arg4 (Wp : Valuation τ sig (Elt F)) :
    StableHlo.after (hostOps0 (F := F)) Wp (Proc.devRef .tc main_arg4) = Wp (Proc.devRef .tc main_arg4) := by
  after_results_simp <;> rfl

/-- The first stretch writes no argument. -/
theorem s1_arg5 (Wp : Valuation τ sig (Elt F)) :
    StableHlo.after (hostOps0 (F := F)) Wp (Proc.devRef .tc main_arg5) = Wp (Proc.devRef .tc main_arg5) := by
  after_results_simp <;> rfl

/-- The first stretch writes no argument. -/
theorem s1_arg6 (Wp : Valuation τ sig (Elt F)) :
    StableHlo.after (hostOps0 (F := F)) Wp (Proc.devRef .tc main_arg6) = Wp (Proc.devRef .tc main_arg6) := by
  after_results_simp <;> rfl

/-! ## Second stretch: the per-node factor, zero where the degree is zero -/

set_option maxHeartbeats 4000000 in
/-- `where(deg > 0, rsqrt(max(deg, 1)), 0)`. -/
theorem s2_factor (Wp : Valuation τ sig (Elt F)) (x1 : (⟨Cert.ReferenceIdeal.S2x1600000, .i32⟩ : BufTy).Contents (Elt F))
    (hpos : Wp (Proc.devRef .tc main_v12) = val_main_v12 x1) (hrs : Wp (Proc.devRef .tc main_v15) = val_main_v15 x1)
    (hz : Wp (Proc.devRef .tc main_cst_3) = (val_main_cst_3 (F := F))) :
    StableHlo.after (hostOps0_1 (F := F)) Wp (Proc.devRef .tc main_v16) = val_main_v16 x1 := by
  after_results_simp
  simp only [TRef.ofBuf_toBuf]
  rw [hpos, hrs, hz]
  rfl

/-- The second stretch writes only the factor and its two temporaries. -/
theorem s2_v3 (Wp : Valuation τ sig (Elt F)) :
    StableHlo.after (hostOps0_1 (F := F)) Wp (Proc.devRef .tc main_v3) = Wp (Proc.devRef .tc main_v3) := by
  after_results_simp <;> rfl

/-- The second stretch writes only the factor and its two temporaries. -/
theorem s2_v6 (Wp : Valuation τ sig (Elt F)) :
    StableHlo.after (hostOps0_1 (F := F)) Wp (Proc.devRef .tc main_v6) = Wp (Proc.devRef .tc main_v6) := by
  after_results_simp <;> rfl

/-- The second stretch writes only the factor and its two temporaries. -/
theorem s2_arg0 (Wp : Valuation τ sig (Elt F)) :
    StableHlo.after (hostOps0_1 (F := F)) Wp (Proc.devRef .tc main_arg0) = Wp (Proc.devRef .tc main_arg0) := by
  after_results_simp <;> rfl

/-- The second stretch writes only the factor and its two temporaries. -/
theorem s2_arg1 (Wp : Valuation τ sig (Elt F)) :
    StableHlo.after (hostOps0_1 (F := F)) Wp (Proc.devRef .tc main_arg1) = Wp (Proc.devRef .tc main_arg1) := by
  after_results_simp <;> rfl

/-- The second stretch writes only the factor and its two temporaries. -/
theorem s2_arg2 (Wp : Valuation τ sig (Elt F)) :
    StableHlo.after (hostOps0_1 (F := F)) Wp (Proc.devRef .tc main_arg2) = Wp (Proc.devRef .tc main_arg2) := by
  after_results_simp <;> rfl

/-- The second stretch writes only the factor and its two temporaries. -/
theorem s2_arg3 (Wp : Valuation τ sig (Elt F)) :
    StableHlo.after (hostOps0_1 (F := F)) Wp (Proc.devRef .tc main_arg3) = Wp (Proc.devRef .tc main_arg3) := by
  after_results_simp <;> rfl

/-- The second stretch writes only the factor and its two temporaries. -/
theorem s2_arg4 (Wp : Valuation τ sig (Elt F)) :
    StableHlo.after (hostOps0_1 (F := F)) Wp (Proc.devRef .tc main_arg4) = Wp (Proc.devRef .tc main_arg4) := by
  after_results_simp <;> rfl

/-- The second stretch writes only the factor and its two temporaries. -/
theorem s2_arg5 (Wp : Valuation τ sig (Elt F)) :
    StableHlo.after (hostOps0_1 (F := F)) Wp (Proc.devRef .tc main_arg5) = Wp (Proc.devRef .tc main_arg5) := by
  after_results_simp <;> rfl

/-- The second stretch writes only the factor and its two temporaries. -/
theorem s2_arg6 (Wp : Valuation τ sig (Elt F)) :
    StableHlo.after (hostOps0_1 (F := F)) Wp (Proc.devRef .tc main_arg6) = Wp (Proc.devRef .tc main_arg6) := by
  after_results_simp <;> rfl

/-! ## Third stretch: the edge weights -/

set_option maxHeartbeats 4000000 in
/-- `factor[source] · factor[target]`, an index below zero wrapped once by the number of nodes. -/
theorem s3_weight (Wp : Valuation τ sig (Elt F)) (x1 : (⟨Cert.ReferenceIdeal.S2x1600000, .i32⟩ : BufTy).Contents (Elt F))
    (hf : Wp (Proc.devRef .tc main_v16) = val_main_v16 x1) (hrow : Wp (Proc.devRef .tc main_v3) = val_main_v3 x1)
    (hcol : Wp (Proc.devRef .tc main_v6) = val_main_v6 x1) :
    StableHlo.after (hostOps0_2 (F := F)) Wp (Proc.devRef .tc main_v31) = val_main_v31 x1 := by
  after_results_simp
  rw [hf, hrow, hcol]
  rfl

/-- The third stretch writes only the weights and their temporaries. -/
theorem s3_v3 (Wp : Valuation τ sig (Elt F)) :
    StableHlo.after (hostOps0_2 (F := F)) Wp (Proc.devRef .tc main_v3) = Wp (Proc.devRef .tc main_v3) := by
  after_results_simp <;> rfl

/-- The third stretch writes only the weights and their temporaries. -/
theorem s3_v6 (Wp : Valuation τ sig (Elt F)) :
    StableHlo.after (hostOps0_2 (F := F)) Wp (Proc.devRef .tc main_v6) = Wp (Proc.devRef .tc main_v6) := by
  after_results_simp <;> rfl

/-- The third stretch writes only the weights and their temporaries. -/
theorem s3_arg0 (Wp : Valuation τ sig (Elt F)) :
    StableHlo.after (hostOps0_2 (F := F)) Wp (Proc.devRef .tc main_arg0) = Wp (Proc.devRef .tc main_arg0) := by
  after_results_simp <;> rfl

/-- The third stretch writes only the weights and their temporaries. -/
theorem s3_arg1 (Wp : Valuation τ sig (Elt F)) :
    StableHlo.after (hostOps0_2 (F := F)) Wp (Proc.devRef .tc main_arg1) = Wp (Proc.devRef .tc main_arg1) := by
  after_results_simp <;> rfl

/-- The third stretch writes only the weights and their temporaries. -/
theorem s3_arg2 (Wp : Valuation τ sig (Elt F)) :
    StableHlo.after (hostOps0_2 (F := F)) Wp (Proc.devRef .tc main_arg2) = Wp (Proc.devRef .tc main_arg2) := by
  after_results_simp <;> rfl

/-- The third stretch writes only the weights and their temporaries. -/
theorem s3_arg3 (Wp : Valuation τ sig (Elt F)) :
    StableHlo.after (hostOps0_2 (F := F)) Wp (Proc.devRef .tc main_arg3) = Wp (Proc.devRef .tc main_arg3) := by
  after_results_simp <;> rfl

/-- The third stretch writes only the weights and their temporaries. -/
theorem s3_arg4 (Wp : Valuation τ sig (Elt F)) :
    StableHlo.after (hostOps0_2 (F := F)) Wp (Proc.devRef .tc main_arg4) = Wp (Proc.devRef .tc main_arg4) := by
  after_results_simp <;> rfl

/-- The third stretch writes only the weights and their temporaries. -/
theorem s3_arg5 (Wp : Valuation τ sig (Elt F)) :
    StableHlo.after (hostOps0_2 (F := F)) Wp (Proc.devRef .tc main_arg5) = Wp (Proc.devRef .tc main_arg5) := by
  after_results_simp <;> rfl

/-- The third stretch writes only the weights and their temporaries. -/
theorem s3_arg6 (Wp : Valuation τ sig (Elt F)) :
    StableHlo.after (hostOps0_2 (F := F)) Wp (Proc.devRef .tc main_arg6) = Wp (Proc.devRef .tc main_arg6) := by
  after_results_simp <;> rfl

/-! ## Between the first dense stage and the second: the first layer's aggregation and its weight matrix -/

set_option maxHeartbeats 4000000 in
/-- The rows of `h` at the sources, scaled by the edge weights, summed into the targets. -/
theorem s5_agg (Wp : Valuation τ sig (Elt F))
    (x0 : (⟨Cert.ReferenceIdeal.S100000x512, .f32⟩ : BufTy).Contents (Elt F)) (x1 : (⟨Cert.ReferenceIdeal.S2x1600000, .i32⟩ : BufTy).Contents (Elt F))
    (x2 : (⟨Cert.ReferenceIdeal.S512x128, .f32⟩ : BufTy).Contents (Elt F)) (x3 : (⟨Cert.ReferenceIdeal.S128, .f32⟩ : BufTy).Contents (Elt F))
    (hw : Wp (Proc.devRef .tc main_v31) = val_main_v31 x1) (hrow : Wp (Proc.devRef .tc main_v3) = val_main_v3 x1)
    (hcol : Wp (Proc.devRef .tc main_v6) = val_main_v6 x1) (hh : Wp (Proc.devRef .tc main_v32) = val_main_v36 x0 x2 x3) :
    StableHlo.after (hostOps1 (F := F)) Wp (Proc.devRef .tc main_v45) = val_main_v49 x0 x1 x2 x3 := by
  after_results_simp
  rw [hw, hrow, hcol, hh]
  rfl

/-- The first layer's weight matrix, cut out of the stack. -/
theorem s5_w (Wp : Valuation τ sig (Elt F)) :
    StableHlo.after (hostOps1 (F := F)) Wp (Proc.devRef .tc main_v47) = val_main_v56 (Wp (Proc.devRef .tc main_arg4)) := by
  after_results_simp
  rfl

/-- This stretch writes only the aggregation, the weight matrix and their temporaries. -/
theorem s5_v3 (Wp : Valuation τ sig (Elt F)) :
    StableHlo.after (hostOps1 (F := F)) Wp (Proc.devRef .tc main_v3) = Wp (Proc.devRef .tc main_v3) := by
  after_results_simp <;> rfl

/-- This stretch writes only the aggregation, the weight matrix and their temporaries. -/
theorem s5_v6 (Wp : Valuation τ sig (Elt F)) :
    StableHlo.after (hostOps1 (F := F)) Wp (Proc.devRef .tc main_v6) = Wp (Proc.devRef .tc main_v6) := by
  after_results_simp <;> rfl

/-- This stretch writes only the aggregation, the weight matrix and their temporaries. -/
theorem s5_v31 (Wp : Valuation τ sig (Elt F)) :
    StableHlo.after (hostOps1 (F := F)) Wp (Proc.devRef .tc main_v31) = Wp (Proc.devRef .tc main_v31) := by
  after_results_simp <;> rfl

/-- This stretch writes only the aggregation, the weight matrix and their temporaries. -/
theorem s5_v32 (Wp : Valuation τ sig (Elt F)) :
    StableHlo.after (hostOps1 (F := F)) Wp (Proc.devRef .tc main_v32) = Wp (Proc.devRef .tc main_v32) := by
  after_results_simp <;> rfl

/-- This stretch writes only the aggregation, the weight matrix and their temporaries. -/
theorem s5_arg4 (Wp : Valuation τ sig (Elt F)) :
    StableHlo.after (hostOps1 (F := F)) Wp (Proc.devRef .tc main_arg4) = Wp (Proc.devRef .tc main_arg4) := by
  after_results_simp <;> rfl

/-- This stretch writes only the aggregation, the weight matrix and their temporaries. -/
theorem s5_arg5 (Wp : Valuation τ sig (Elt F)) :
    StableHlo.after (hostOps1 (F := F)) Wp (Proc.devRef .tc main_arg5) = Wp (Proc.devRef .tc main_arg5) := by
  after_results_simp <;> rfl

/-- This stretch writes only the aggregation, the weight matrix and their temporaries. -/
theorem s5_arg6 (Wp : Valuation τ sig (Elt F)) :
    StableHlo.after (hostOps1 (F := F)) Wp (Proc.devRef .tc main_arg6) = Wp (Proc.devRef .tc main_arg6) := by
  after_results_simp <;> rfl

/-! ## Between the second dense stage and the third: the second layer's aggregation and its weight matrix -/

set_option maxHeartbeats 4000000 in
/-- The same aggregation of the first layer's output. -/
theorem s7_agg (Wp : Valuation τ sig (Elt F))
    (x0 : (⟨Cert.ReferenceIdeal.S100000x512, .f32⟩ : BufTy).Contents (Elt F)) (x1 : (⟨Cert.ReferenceIdeal.S2x1600000, .i32⟩ : BufTy).Contents (Elt F))
    (x2 : (⟨Cert.ReferenceIdeal.S512x128, .f32⟩ : BufTy).Contents (Elt F)) (x3 : (⟨Cert.ReferenceIdeal.S128, .f32⟩ : BufTy).Contents (Elt F))
    (x4 : (⟨Cert.ReferenceIdeal.S2x128x128, .f32⟩ : BufTy).Contents (Elt F))
    (hw : Wp (Proc.devRef .tc main_v31) = val_main_v31 x1) (hrow : Wp (Proc.devRef .tc main_v3) = val_main_v3 x1)
    (hcol : Wp (Proc.devRef .tc main_v6) = val_main_v6 x1) (hh : Wp (Proc.devRef .tc main_v48) = val_main_v57 x0 x1 x2 x3 x4) :
    StableHlo.after (hostOps2 (F := F)) Wp (Proc.devRef .tc main_v61) = val_main_v70 x0 x1 x2 x3 x4 := by
  after_results_simp
  rw [hw, hrow, hcol, hh]
  rfl

/-- The second layer's weight matrix, cut out of the stack. -/
theorem s7_w (Wp : Valuation τ sig (Elt F)) :
    StableHlo.after (hostOps2 (F := F)) Wp (Proc.devRef .tc main_v63) = val_main_v77 (Wp (Proc.devRef .tc main_arg4)) := by
  after_results_simp
  rfl

/-- This stretch writes only the aggregation, the weight matrix and their temporaries. -/
theorem s7_v32 (Wp : Valuation τ sig (Elt F)) :
    StableHlo.after (hostOps2 (F := F)) Wp (Proc.devRef .tc main_v32) = Wp (Proc.devRef .tc main_v32) := by
  after_results_simp <;> rfl

/-- This stretch writes only the aggregation, the weight matrix and their temporaries. -/
theorem s7_arg5 (Wp : Valuation τ sig (Elt F)) :
    StableHlo.after (hostOps2 (F := F)) Wp (Proc.devRef .tc main_arg5) = Wp (Proc.devRef .tc main_arg5) := by
  after_results_simp <;> rfl

/-- This stretch writes only the aggregation, the weight matrix and their temporaries. -/
theorem s7_arg6 (Wp : Valuation τ sig (Elt F)) :
    StableHlo.after (hostOps2 (F := F)) Wp (Proc.devRef .tc main_arg6) = Wp (Proc.devRef .tc main_arg6) := by
  after_results_simp <;> rfl

end Cert.KernelIdeal.HostStretch

end
-- ==== Proof.Spec.lean ====
/-
  The dense stages of the network as whole-array functions on the extended reals, entry by entry.
  A node-feature array has one row per node (100000 of them); every stage acts on each row by itself:
    * `linRelu x w b`   : row r, column q  ↦  max (Σₖ x[r,k]·w[k,q] + b[q]) 0       (512 → 128 features)
    * `combine a h w`   : row r, column q  ↦  Σₖ (c₉·a[r,k] + c₁·h[r,k])·w[k,q]      (128 → 128), c₉ and c₁ the two
                           binary32 literals the source spells 1 - 0.1 and 0.1 (the same words on both sides, never opened)
    * `lin h w b`       : row r, column q  ↦  Σₖ h[r,k]·w[k,q] + b[q]                (128 → 64)
  Row r of a result depends on row r of the row-indexed operands only, which is why a kernel that works through
  the rows 5000 at a time computes the same array as one whole matrix product.
-/
import Idealize.ShloMosaic.PureOps.Ideal
import Idealize.ShloMosaic.Lib.ValueIdx

noncomputable section

namespace Cert.Spec

open Idealize.ShloMosaic Idealize.ShloMosaic.ValueIdx

/-- `relu (x · w + b)`, entry by entry. -/
def linRelu (x : FVec Ideal ⟨2, ![100000, 512]⟩ .f32) (w : FVec Ideal ⟨2, ![512, 128]⟩ .f32) (b : FVec Ideal ⟨1, ![128]⟩ .f32) :
    FVec Ideal ⟨2, ![100000, 128]⟩ .f32 := fun i =>
  max ((∑ k : Fin 512, x (ix2 (n0 := 100000) (n1 := 512) ⟨(i 0).val, (i 0).isLt⟩ k) * w (ix2 (n0 := 512) (n1 := 128) k ⟨(i 1).val, (i 1).isLt⟩))
      + b (ix1 (n := 128) ⟨(i 1).val, (i 1).isLt⟩))
    (Ideal.ofBits .f32 0x00000000#32)

/-- `(c₉ · a + c₁ · h) · w`, entry by entry: the aggregated features mixed with the first layer's, then projected. -/
def combine (a h : FVec Ideal ⟨2, ![100000, 128]⟩ .f32) (w : FVec Ideal ⟨2, ![128, 128]⟩ .f32) :
    FVec Ideal ⟨2, ![100000, 128]⟩ .f32 := fun i =>
  ∑ k : Fin 128,
    (Ideal.ofBits .f32 0x3F666666#32 * a (ix2 (n0 := 100000) (n1 := 128) ⟨(i 0).val, (i 0).isLt⟩ k)
      + Ideal.ofBits .f32 0x3DCCCCCD#32 * h (ix2 (n0 := 100000) (n1 := 128) ⟨(i 0).val, (i 0).isLt⟩ k))
    * w (ix2 (n0 := 128) (n1 := 128) k ⟨(i 1).val, (i 1).isLt⟩)

/-- `h · w + b`, entry by entry. -/
def lin (h : FVec Ideal ⟨2, ![100000, 128]⟩ .f32) (w : FVec Ideal ⟨2, ![128, 64]⟩ .f32) (b : FVec Ideal ⟨1, ![64]⟩ .f32) :
    FVec Ideal ⟨2, ![100000, 64]⟩ .f32 := fun i =>
  (∑ k : Fin 128, h (ix2 (n0 := 100000) (n1 := 128) ⟨(i 0).val, (i 0).isLt⟩ k) * w (ix2 (n0 := 128) (n1 := 64) k ⟨(i 1).val, (i 1).isLt⟩))
    + b (ix1 (n := 64) ⟨(i 1).val, (i 1).isLt⟩)

end Cert.Spec

end
-- ==== Proof.Reg0.lean ====
/-
  The first dense stage, relu (x · w + b), as the kernel program computes it.

  The kernel works through the 100000 rows of x in 20 blocks of 5000 rows. At block t it holds rows 5000·t … 5000·t + 4999
  of x (all 512 columns), the whole of w (512 × 128) and the whole of b (128), and leaves the 5000 × 128 block

      (p, q)  ↦  max (Σₖ x_blk[p, k] · w[k, q] + b[q]) 0 .

  On the extended reals the narrowing of the operands is the identity and the matrix unit's product into a zero
  accumulator is the plain sum over the contracted index, so entry (p, q) of block t is entry (5000·t + p, q) of the
  one whole-array function `Cert.Spec.linRelu x w b`: row r of the result depends on row r of x only. The 20 blocks
  tile the rows (row r lies in block r / 5000), so after the region the output array is that function of the region's
  input arrays.

  Contents: the product's operand indices, axis by axis; the block's entry (p, q) as the sum above; each input block
  read at an entry as the array read at the row the block sits at; what block t writes back as the restriction of
  `linRelu`; the blocks cover every row; the array after the region.
-/
import proofs.«176975_j38817914421894_1_alg».proof.Proof.Gen.KernelIdeal.Frame
import proofs.«176975_j38817914421894_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The product's operand indices

At output entry `i` and contraction index `q` the left operand is read at (row of `i`, `q`) and the right operand at
(`q`, column of `i`). -/

/-- The left operand's row is the output's row. -/
theorem lhs_row (i : S5000x128.Idx) (q : dot_S5000x512_S512x128_S5000x128_1_0_0_1_n_n.contr.Idx) :
    (dot_S5000x512_S512x128_S5000x128_1_0_0_1_n_n.lhsIdx i q 0).val = (i 0).val := by
  unfold DotDims.lhsIdx
  rw [dif_neg (show ¬(0 : Fin S5000x512.rank) ∈ dot_S5000x512_S512x128_S5000x128_1_0_0_1_n_n.lhsBatch by decide), dif_pos (show (0 : Fin S5000x512.rank) ∈ dot_S5000x512_S512x128_S5000x128_1_0_0_1_n_n.lhsNonContracting by decide)]
  rfl
/-- The left operand's column is the contraction index. -/
theorem lhs_col (i : S5000x128.Idx) (q : dot_S5000x512_S512x128_S5000x128_1_0_0_1_n_n.contr.Idx) :
    (dot_S5000x512_S512x128_S5000x128_1_0_0_1_n_n.lhsIdx i q 1).val = (q ⟨0, by decide⟩).val :=
  dot_S5000x512_S512x128_S5000x128_1_0_0_1_n_n.lhsIdx_val_of_single rfl i q
/-- The right operand's row is the contraction index. -/
theorem rhs_row (i : S5000x128.Idx) (q : dot_S5000x512_S512x128_S5000x128_1_0_0_1_n_n.contr.Idx) :
    (dot_S5000x512_S512x128_S5000x128_1_0_0_1_n_n.rhsIdx i q 0).val = (q ⟨0, by decide⟩).val :=
  dot_S5000x512_S512x128_S5000x128_1_0_0_1_n_n.rhsIdx_val_of_single rfl i q
/-- The right operand's column is the output's column. -/
theorem rhs_col (i : S5000x128.Idx) (q : dot_S5000x512_S512x128_S5000x128_1_0_0_1_n_n.contr.Idx) :
    (dot_S5000x512_S512x128_S5000x128_1_0_0_1_n_n.rhsIdx i q 1).val = (i 1).val := by
  unfold DotDims.rhsIdx
  rw [dif_neg (show ¬(1 : Fin S512x128.rank) ∈ dot_S5000x512_S512x128_S5000x128_1_0_0_1_n_n.rhsBatch by decide), dif_pos (show (1 : Fin S512x128.rank) ∈ dot_S5000x512_S512x128_S5000x128_1_0_0_1_n_n.rhsNonContracting by decide)]
  rfl

/-- The matrix product of a 5000 × 512 block with a 512 × 128 matrix into the zero accumulator, at entry (p, q):
    Σₖ l[p, k] · r[k, q]. -/
theorem product_apply (l : FVec Ideal S5000x512 .bf16) (r : FVec Ideal S512x128 .bf16) (p : Fin 5000) (q : Fin 128) :
    matmul dot_S5000x512_S512x128_S5000x128_1_0_0_1_n_n none l r (constant S5000x128 .f32 0x00000000#32) (ix2 p q)
      = ∑ k : Fin 512, l (ix2 p k) * r (ix2 k q) := by
  refine (Ideal.matmul_constant_zero_apply dot_S5000x512_S512x128_S5000x128_1_0_0_1_n_n none l r (ix2 p q)).trans ?_
  rw [← Equiv.sum_comp (ValueIdx.contrEquiv1 dot_S5000x512_S512x128_S5000x128_1_0_0_1_n_n 512 rfl rfl).symm]
  refine Finset.sum_congr rfl fun k _ => ?_
  have hk := ValueIdx.contrEquiv1_symm_val dot_S5000x512_S512x128_S5000x128_1_0_0_1_n_n 512 rfl rfl k
  have el : dot_S5000x512_S512x128_S5000x128_1_0_0_1_n_n.lhsIdx (ix2 p q) ((ValueIdx.contrEquiv1 dot_S5000x512_S512x128_S5000x128_1_0_0_1_n_n 512 rfl rfl).symm k) = ix2 p k := funext fun a => Fin.ext (by
    match a with
    | ⟨0, _⟩ => exact lhs_row _ _
    | ⟨1, _⟩ => exact (lhs_col _ _).trans hk)
  have er : dot_S5000x512_S512x128_S5000x128_1_0_0_1_n_n.rhsIdx (ix2 p q) ((ValueIdx.contrEquiv1 dot_S5000x512_S512x128_S5000x128_1_0_0_1_n_n 512 rfl rfl).symm k) = ix2 k q := funext fun a => Fin.ext (by
    match a with
    | ⟨0, _⟩ => exact (rhs_row _ _).trans hk
    | ⟨1, _⟩ => exact rhs_col _ _)
  rw [el, er]

/-! ## The block's entry -/

/-- Entry (p, q) of the block the body leaves, from the three blocks it loads: max (Σₖ x[p, k] · w[k, q] + b[q]) 0. -/
theorem block_apply (x : Vec Ideal S5000x512 .f32) (w : Vec Ideal S512x128 .f32) (b : Vec Ideal S128 .f32) (p : Fin 5000) (q : Fin 128) :
    k0_pay1 (F := Ideal) x w b (ix2 p q)
      = max ((∑ k : Fin 512, x (ix2 p k) * w (ix2 k q)) + b (ix1 q)) (Ideal.ofBits .f32 0x00000000#32) := by
  unfold k0_pay1
  show max ((matmul dot_S5000x512_S512x128_S5000x128_1_0_0_1_n_n none (truncf .bf16 (x : FVec Ideal S5000x512 .f32) bitsLt_bf16_f32 : FVec Ideal S5000x512 .bf16)
          (truncf .bf16 (w : FVec Ideal S512x128 .f32) bitsLt_bf16_f32 : FVec Ideal S512x128 .bf16) (constant (F := Ideal) S5000x128 .f32 0x00000000#32) : FVec Ideal S5000x128 .f32) (ix2 p q)
        + (broadcastTo S5000x128 (shapeCast S1x128 (b : FVec Ideal S128 .f32) shapeCasts_S128_S1x128) broadcasts_S1x128_S5000x128 : FVec Ideal S5000x128 .f32) (ix2 p q))
      (Ideal.ofBits .f32 0x00000000#32) = _
  refine congrArg₂ max (congrArg₂ (· + ·) ?_ ?_) rfl
  · exact product_apply _ _ p q
  · refine (broadcastTo_1b_ab_apply _ broadcasts_S1x128_S5000x128 p q).trans ?_
    exact shapeCast_a_1a_apply b shapeCasts_S128_S1x128 0 q

/-! ## Where the blocks sit

At grid point `t` the window on x and the output window are at block row `t`, block column 0; the windows on w and b
stay at block 0. -/

theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem zero_offsets₂ : (![0, 0] : Fin 2 → Nat) = fun _ => 0 := funext fun a => by fin_cases a <;> rfl
theorem zero_offsets₁ : (![0] : Fin 1 → Nat) = fun _ => 0 := funext fun a => by fin_cases a; rfl

/-- Entry (p, k) of the block of x at point `t` is x at row 5000·t + p, column k. -/
theorem x_block_apply (c : Dev nD) (t : Fin cfg0.N) (p : Fin 5000) (k : Fin 512) (i : S100000x512.Idx)
    (h0 : (i 0).val = 5000 * t.val + p.val) (h1 : (i 1).val = k.val) :
    (iblk0 V c 0 t : Vec Ideal S5000x512 .f32) (ix2 p k) = (V c main_arg0 : S100000x512.Idx → Elt Ideal .f32) i := by
  obtain ⟨e0, e1, -⟩ := block_index t
  unfold iblk0
  rw [View.read_apply]
  show V c main_arg0 _ = V c main_arg0 _
  congr 1
  funext a; apply Fin.ext
  match a with
  | ⟨0, _⟩ => show win0_0.index t 0 * 5000 + 1 * p.val = (i 0).val; rw [e0, h0]; omega
  | ⟨1, _⟩ => show win0_0.index t 1 * 512 + 1 * k.val = (i 1).val; rw [e1, h1]; omega

/-- The block of w at every point is w. -/
theorem w_block_apply (c : Dev nD) (t : Fin cfg0.N) (k : Fin 512) (q : Fin 128) (i : S512x128.Idx)
    (h0 : (i 0).val = k.val) (h1 : (i 1).val = q.val) :
    (iblk0 V c 1 t : Vec Ideal S512x128 .f32) (ix2 k q) = (V c main_arg2 : S512x128.Idx → Elt Ideal .f32) i := by
  obtain ⟨-, -, e0, e1, -⟩ := block_index t
  unfold iblk0
  rw [View.read_apply]
  show V c main_arg2 _ = V c main_arg2 _
  congr 1
  funext a; apply Fin.ext
  match a with
  | ⟨0, _⟩ => show win0_1.index t 0 * 512 + 1 * k.val = (i 0).val; rw [e0, h0]; omega
  | ⟨1, _⟩ => show win0_1.index t 1 * 128 + 1 * q.val = (i 1).val; rw [e1, h1]; omega

/-- The block of b at every point is b. -/
theorem b_block_apply (c : Dev nD) (t : Fin cfg0.N) (q : Fin 128) (i : S128.Idx) (h0 : (i 0).val = q.val) :
    (iblk0 V c 2 t : Vec Ideal S128 .f32) (ix1 q) = (V c main_arg3 : S128.Idx → Elt Ideal .f32) i := by
  obtain ⟨-, -, -, -, e0, -⟩ := block_index t
  unfold iblk0
  rw [View.read_apply]
  show V c main_arg3 _ = V c main_arg3 _
  congr 1
  funext a; apply Fin.ext
  match a with
  | ⟨0, _⟩ => show win0_2.index t 0 * 128 + 1 * q.val = (i 0).val; rw [e0, h0]; omega

/-- Entry (p, q) of the output block at point `t` sits in the array at row 5000·t + p, -/
theorem out_row (t : Fin cfg0.N) (p : Fin 5000) (q : Fin 128) :
    ((((cfg0.win 3).blk t).view.emb (ix2 p q)) 0).val = 5000 * t.val + p.val := by
  obtain ⟨-, -, -, -, -, e0, -⟩ := block_index t
  show win0_3.index t 0 * 5000 + 1 * p.val = _
  rw [e0]; omega
/-- column q. -/
theorem out_col (t : Fin cfg0.N) (p : Fin 5000) (q : Fin 128) :
    ((((cfg0.win 3).blk t).view.emb (ix2 p q)) 1).val = q.val := by
  obtain ⟨-, -, -, -, -, -, e1⟩ := block_index t
  show win0_3.index t 1 * 128 + 1 * q.val = _
  rw [e1]; omega

/-! ## What a point writes back -/

/-- Point `t` writes back rows 5000·t … 5000·t + 4999 of `linRelu x w b`. -/
theorem flushed_eq (c : Dev nD) (t : Fin cfg0.N) :
    (dat0 (F := Ideal) V c).flushed 3 t
      = ((cfg0.win 3).blk t).view.read (Elt Ideal) (Cert.Spec.linRelu (V c main_arg0) (V c main_arg2) (V c main_arg3)) := by
  show (cfg0.win 3).cut (grid0.coords t) ((dat0 V c).after 3 t) = _
  rw [after0_3]
  unfold out0_3
  rw [View.canon_unit_zero zero_offsets₂]
  simp only [View.ld_unit_zero (S := S5000x512) zero_offsets₂, View.ld_unit_zero (S := S512x128) zero_offsets₂,
    View.ld_unit_zero (S := S128) zero_offsets₁]
  funext y
  obtain ⟨p, q, rfl⟩ : ∃ (p : Fin 5000) (q : Fin 128), y = ix2 p q := ⟨y 0, y 1, eq_ix2 y⟩
  refine (block_apply (iblk0 V c 0 t) (iblk0 V c 1 t) (iblk0 V c 2 t) p q).trans ?_
  rw [View.read_apply]
  show _ = Cert.Spec.linRelu (V c main_arg0) (V c main_arg2) (V c main_arg3) (((cfg0.win 3).blk t).view.emb (ix2 p q))
  unfold Cert.Spec.linRelu
  refine congrArg₂ max (congrArg₂ (· + ·) (Finset.sum_congr rfl fun k _ => congrArg₂ (· * ·) ?_ ?_) ?_) rfl
  · exact x_block_apply V c t p k _ (out_row t p q) rfl
  · exact w_block_apply V c t k q _ rfl (out_col t p q)
  · exact b_block_apply V c t q _ (out_col t p q)

/-! ## The blocks cover the rows -/

/-- An entry of the array is in point `t`'s block iff each coordinate is in the block's range on its axis. -/
theorem mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v32).slice (win0_3.rect t)).set ↔ _
  rw [View.set_slice_whole, Rect.mem_set_unit]
  exact Iff.rfl

/-- Row r lies in the block of point r / 5000, which is written back. -/
theorem rows_covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 20 := N_0
  have ht : (i 0).val / 5000 < grid0.N := by omega
  obtain ⟨-, -, -, -, -, e0, e1⟩ := block_index ⟨(i 0).val / 5000, ht⟩
  have e0' : win0_3.index ⟨(i 0).val / 5000, ht⟩ (0 : Fin 2) = (i 0).val / 5000 := e0
  refine ⟨⟨(i 0).val / 5000, ht⟩, flush0_3 _, ?_⟩
  rw [mem_block]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e0']; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e1]; omega

/-! ## The array after the region -/

theorem final (c : Dev nD) :
    (dat0 (F := Ideal) V c).arrAt 3 cfg0.N = Cert.Spec.linRelu (V c main_arg0) (V c main_arg2) (V c main_arg3) :=
  (dat0 V c).arrAt_eq_of_cover 3 (Cert.Spec.linRelu (V c main_arg0) (V c main_arg2) (V c main_arg3))
    (fun t _ => flushed_eq V c t) rows_covered

end Cert.KernelIdeal.Reg0

end
-- ==== Proof.Reg1.lean ====
/-
  Region 1 of the idealized kernel program: the mixing-and-projection stage `(c₉·a + c₁·h)·w`, worked through the
  100000 rows in 20 blocks of 5000.
  * At one entry (row p of the block, column q) the block's result is
      Σₖ (c₉·a[p,k] + c₁·h[p,k])·w[k,q]   over the 128 contracted features k:
    on the extended reals the roundings to the narrow format are the identity, the two scalings and the sum are entry
    by entry, and the matrix product into a zero accumulator is the plain sum over the contracted axis.
  * Block t of either row-indexed operand is rows 5000·t … 5000·t + 4999 of its array, the weight block is the whole
    128×128 array, and block t of the result is written back to the same rows. Row r of the result therefore depends on
    row r of the two row-indexed operands only, so block t of the result is the restriction to its rows of the ONE
    whole-array function `Cert.Spec.combine`.
  * The 20 row blocks tile the 100000 rows (row r lies in block r / 5000), so after the region the result array is
    that function of the region's three input arrays.
-/
import proofs.«176975_j38817914421894_1_alg».proof.Proof.Gen.KernelIdeal.Frame
import proofs.«176975_j38817914421894_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The matrix product's operand indices

The product contracts axis 1 of the left operand with axis 0 of the right one: at result entry `i` and contracted
coordinate `q` the left operand is read at row `i 0`, column `q`, and the right one at row `q`, column `i 1`. -/

/-- The left operand's row is the result's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left operand's column is the contracted coordinate. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand's row is the contracted coordinate. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right operand's column is the result's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## One block's result, entry by entry -/

/-- Row `p`, column `q` of a block's result: the two row-indexed blocks scaled and added entry by entry, then
    contracted with the weights over the 128 features. -/
theorem block_apply (a h : Vec Ideal S5000x128 .f32) (w : Vec Ideal S128x128 .f32) (p : Fin 5000) (q : Fin 128) :
    k1_pay1 (F := Ideal) a h w (ix2 p q)
      = ∑ k : Fin 128, (Ideal.ofBits .f32 0x3F666666#32 * a (ix2 p k) + Ideal.ofBits .f32 0x3DCCCCCD#32 * h (ix2 p k)) * w (ix2 k q) := by
  unfold k1_pay1
  refine (Ideal.matmul_constant_zero_apply dot_S5000x128_S128x128_S5000x128_1_0_0_1_n_n none _ _ (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun d => Fin.ext (by
    match d with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun d => Fin.ext (by
    match d with
    | ⟨0, _⟩ => exact (rhs_row _ _).trans hk
    | ⟨1, _⟩ => exact rhs_col _ _)
  rw [el, er]
  simp only [shapeCast_self]
  rfl

/-! ## Where each window's block sits in its array -/

theorem zero_offsets : (![0, 0] : Fin 2 → Nat) = fun _ => 0 := funext fun a => by fin_cases a <;> rfl

/-- The block indices at grid point `t`, decided over the 20 points: the two row-indexed operands and the result
    take row block `t`, column block 0; the weights always take block (0, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Block `t` of the aggregated features is rows `5000·t … 5000·t + 4999` of their array. -/
theorem agg_block (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c main_v45 : S100000x128.Idx → Elt Ideal .f32) i := by
  obtain ⟨e0, e1, -⟩ := block_index t
  unfold iblk1
  rw [View.read_apply]
  show V c main_v45 _ = V c main_v45 _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- Block `t` of the first layer's features is rows `5000·t … 5000·t + 4999` of their array. -/
theorem h0_block (c : Dev nD) (t : Fin cfg1.N) (y : S5000x128.Idx) (i : S100000x128.Idx)
    (h0 : (i 0).val = 5000 * t.val + (y 0).val) (h1 : (i 1).val = (y 1).val) :
    (iblk1 V c 1 t : Vec Ideal S5000x128 .f32) y = (V c main_v32 : S100000x128.Idx → Elt Ideal .f32) i := by
  obtain ⟨-, -, e0, e1, -⟩ := block_index t
  unfold iblk1
  rw [View.read_apply]
  show V c main_v32 _ = V c main_v32 _
  congr 1
  funext a
  apply Fin.ext
  match a with
  | ⟨0, _⟩ => show win1_1.index t 0 * 5000 + 1 * (y 0).val = (i 0).val; rw [e0, h0]; omega
  | ⟨1, _⟩ => show win1_1.index t 1 * 128 + 1 * (y 1).val = (i 1).val; rw [e1, h1]; omega

/-- The weights' block at every point is the whole weight array. -/
theorem w_block (c : Dev nD) (t : Fin cfg1.N) (y : S128x128.Idx) (i : S128x128.Idx)
    (h0 : (i 0).val = (y 0).val) (h1 : (i 1).val = (y 1).val) :
    (iblk1 V c 2 t : Vec Ideal S128x128 .f32) y = (V c main_v47 : S128x128.Idx → Elt Ideal .f32) i := by
  obtain ⟨-, -, -, -, e0, e1, -⟩ := block_index t
  unfold iblk1
  rw [View.read_apply]
  show V c main_v47 _ = V c main_v47 _
  congr 1
  funext a
  apply Fin.ext
  match a with
  | ⟨0, _⟩ => show win1_2.index t 0 * 128 + 1 * (y 0).val = (i 0).val; rw [e0, h0]; omega
  | ⟨1, _⟩ => show win1_2.index t 1 * 128 + 1 * (y 1).val = (i 1).val; rw [e1, h1]; omega

/-! ## What a point writes back -/

/-- What point `t` writes back is block `t` of the whole-array function: entry (p, q) of the block's result reads row
    `5000·t + p` of the two row-indexed arrays and column `q` of the weights, which is what `Cert.Spec.combine` reads
    at row `5000·t + p`, column `q`. -/
theorem flushed_eq (c : Dev nD) (t : Fin cfg1.N) :
    (dat1 (F := Ideal) V c).flushed 3 t
      = ((cfg1.win 3).blk t).view.read (Elt Ideal) (Cert.Spec.combine (V c main_v45) (V c main_v32) (V c main_v47)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S128x128) zero_offsets]
  obtain ⟨-, -, -, -, -, -, e0, e1⟩ := block_index t
  funext y
  obtain ⟨p, q, rfl⟩ : ∃ (p : Fin 5000) (q : Fin 128), y = ix2 p q := ⟨y 0, y 1, eq_ix2 y⟩
  rw [View.read_apply]
  show k1_pay1 (F := Ideal) (iblk1 V c 0 t) (iblk1 V c 1 t) (iblk1 V c 2 t) (ix2 p q)
    = Cert.Spec.combine (V c main_v45) (V c main_v32) (V c main_v47) (((cfg1.win 3).blk t).view.emb (ix2 p q))
  rw [block_apply]
  unfold Cert.Spec.combine
  have r0 : ((((cfg1.win 3).blk t).view.emb (ix2 p q)) 0).val = 5000 * t.val + p.val := by
    show win1_3.index t 0 * 5000 + 1 * p.val = _; rw [e0]; omega
  have r1 : ((((cfg1.win 3).blk t).view.emb (ix2 p q)) 1).val = q.val := by
    show win1_3.index t 1 * 128 + 1 * q.val = _; rw [e1]; omega
  refine Finset.sum_congr rfl fun k _ => ?_
  rw [agg_block V c t (ix2 p k) (ix2 (n0 := 100000) (n1 := 128) ⟨_, ((((cfg1.win 3).blk t).view.emb (ix2 p q)) 0).isLt⟩ k) r0 rfl,
    h0_block V c t (ix2 p k) (ix2 (n0 := 100000) (n1 := 128) ⟨_, ((((cfg1.win 3).blk t).view.emb (ix2 p q)) 0).isLt⟩ k) r0 rfl,
    w_block V c t (ix2 k q) (ix2 (n0 := 128) (n1 := 128) k ⟨_, ((((cfg1.win 3).blk t).view.emb (ix2 p q)) 1).isLt⟩) rfl r1]

/-! ## The blocks tile the rows -/

/-- An index of the result array lies in point `t`'s block iff each coordinate lies in the block's range on its axis. -/
theorem mem_block (t : Fin cfg1.N) (i : S100000x128.Idx) :
    i ∈ ((cfg1.win 3).blk t).view.set
      ↔ ∀ a : Fin 2, win1_3.index t a * S5000x128.size a ≤ (i a).val ∧ (i a).val < win1_3.index t a * S5000x128.size a + S5000x128.size a := by
  show i ∈ ((View.whole main_v48).slice (win1_3.rect t)).set ↔ _
  rw [View.set_slice_whole, Rect.mem_set_unit]
  exact Iff.rfl

/-- Row `r` of the result lies in the block of point `r / 5000`, and every point writes its block back. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, e0, e1⟩ := block_index t
  refine ⟨t, flush1_3 t, ?_⟩
  rw [mem_block]
  intro a
  match a with
  | ⟨0, _⟩ => show win1_3.index t 0 * 5000 ≤ (i 0).val ∧ (i 0).val < win1_3.index t 0 * 5000 + 5000; rw [e0, ht]; omega
  | ⟨1, _⟩ => show win1_3.index t 1 * 128 ≤ (i 1).val ∧ (i 1).val < win1_3.index t 1 * 128 + 128; rw [e1]; omega

/-! ## The result array after the region -/

/-- After the region the result array is `Cert.Spec.combine` of the region's three input arrays: every point writes
    back its block of that function, and the blocks cover the array. -/
theorem final (c : Dev nD) :
    (dat1 (F := Ideal) V c).arrAt 3 cfg1.N = Cert.Spec.combine (V c main_v45) (V c main_v32) (V c main_v47) :=
  (dat1 V c).arrAt_eq_of_cover 3 (Cert.Spec.combine (V c main_v45) (V c main_v32) (V c main_v47))
    (fun t _ => flushed_eq V c t) covered

end Cert.KernelIdeal.Reg1

end
-- ==== Proof.Reg2.lean ====
/-
  Region 2 of the idealized kernel program: the mixing-and-projection stage `(c₉·a + c₁·h)·w`, worked through the
  100000 rows in 20 blocks of 5000.
  * At one entry (row p of the block, column q) the block's result is
      Σₖ (c₉·a[p,k] + c₁·h[p,k])·w[k,q]   over the 128 contracted features k:
    on the extended reals the roundings to the narrow format are the identity, the two scalings and the sum are entry
    by entry, and the matrix product into a zero accumulator is the plain sum over the contracted axis.
  * Block t of either row-indexed operand is rows 5000·t … 5000·t + 4999 of its array, the weight block is the whole
    128×128 array, and block t of the result is written back to the same rows. Row r of the result therefore depends on
    row r of the two row-indexed operands only, so block t of the result is the restriction to its rows of the ONE
    whole-array function `Cert.Spec.combine`.
  * The 20 row blocks tile the 100000 rows (row r lies in block r / 5000), so after the region the result array is
    that function of the region's three input arrays.
-/
import proofs.«176975_j38817914421894_1_alg».proof.Proof.Gen.KernelIdeal.Frame
import proofs.«176975_j38817914421894_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The matrix product's operand indices

The product contracts axis 1 of the left operand with axis 0 of the right one: at result entry `i` and contracted
coordinate `q` the left operand is read at row `i 0`, column `q`, and the right one at row `q`, column `i 1`. -/

/-- The left operand's row is the result's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left operand's column is the contracted coordinate. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand's row is the contracted coordinate. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right operand's column is the result's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## One block's result, entry by entry -/

/-- Row `p`, column `q` of a block's result: the two row-indexed blocks scaled and added entry by entry, then
    contracted with the weights over the 128 features. -/
theorem block_apply (a h : Vec Ideal S5000x128 .f32) (w : Vec Ideal S128x128 .f32) (p : Fin 5000) (q : Fin 128) :
    k2_pay1 (F := Ideal) a h w (ix2 p q)
      = ∑ k : Fin 128, (Ideal.ofBits .f32 0x3F666666#32 * a (ix2 p k) + Ideal.ofBits .f32 0x3DCCCCCD#32 * h (ix2 p k)) * w (ix2 k q) := by
  unfold k2_pay1
  refine (Ideal.matmul_constant_zero_apply dot_S5000x128_S128x128_S5000x128_1_0_0_1_n_n none _ _ (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun d => Fin.ext (by
    match d with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun d => Fin.ext (by
    match d with
    | ⟨0, _⟩ => exact (rhs_row _ _).trans hk
    | ⟨1, _⟩ => exact rhs_col _ _)
  rw [el, er]
  simp only [shapeCast_self]
  rfl

/-! ## Where each window's block sits in its array -/

theorem zero_offsets : (![0, 0] : Fin 2 → Nat) = fun _ => 0 := funext fun a => by fin_cases a <;> rfl

/-- The block indices at grid point `t`, decided over the 20 points: the two row-indexed operands and the result
    take row block `t`, column block 0; the weights always take block (0, 0). -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Block `t` of the aggregated features is rows `5000·t … 5000·t + 4999` of their array. -/
theorem agg_block (c : Dev nD) (t : Fin cfg2.N) (y : S5000x128.Idx) (i : S100000x128.Idx)
    (h0 : (i 0).val = 5000 * t.val + (y 0).val) (h1 : (i 1).val = (y 1).val) :
    (iblk2 V c 0 t : Vec Ideal S5000x128 .f32) y = (V c main_v61 : S100000x128.Idx → Elt Ideal .f32) i := by
  obtain ⟨e0, e1, -⟩ := block_index t
  unfold iblk2
  rw [View.read_apply]
  show V c main_v61 _ = V c main_v61 _
  congr 1
  funext a
  apply Fin.ext
  match a with
  | ⟨0, _⟩ => show win2_0.index t 0 * 5000 + 1 * (y 0).val = (i 0).val; rw [e0, h0]; omega
  | ⟨1, _⟩ => show win2_0.index t 1 * 128 + 1 * (y 1).val = (i 1).val; rw [e1, h1]; omega

/-- Block `t` of the first layer's features is rows `5000·t … 5000·t + 4999` of their array. -/
theorem h0_block (c : Dev nD) (t : Fin cfg2.N) (y : S5000x128.Idx) (i : S100000x128.Idx)
    (h0 : (i 0).val = 5000 * t.val + (y 0).val) (h1 : (i 1).val = (y 1).val) :
    (iblk2 V c 1 t : Vec Ideal S5000x128 .f32) y = (V c main_v32 : S100000x128.Idx → Elt Ideal .f32) i := by
  obtain ⟨-, -, e0, e1, -⟩ := block_index t
  unfold iblk2
  rw [View.read_apply]
  show V c main_v32 _ = V c main_v32 _
  congr 1
  funext a
  apply Fin.ext
  match a with
  | ⟨0, _⟩ => show win2_1.index t 0 * 5000 + 1 * (y 0).val = (i 0).val; rw [e0, h0]; omega
  | ⟨1, _⟩ => show win2_1.index t 1 * 128 + 1 * (y 1).val = (i 1).val; rw [e1, h1]; omega

/-- The weights' block at every point is the whole weight array. -/
theorem w_block (c : Dev nD) (t : Fin cfg2.N) (y : S128x128.Idx) (i : S128x128.Idx)
    (h0 : (i 0).val = (y 0).val) (h1 : (i 1).val = (y 1).val) :
    (iblk2 V c 2 t : Vec Ideal S128x128 .f32) y = (V c main_v63 : S128x128.Idx → Elt Ideal .f32) i := by
  obtain ⟨-, -, -, -, e0, e1, -⟩ := block_index t
  unfold iblk2
  rw [View.read_apply]
  show V c main_v63 _ = V c main_v63 _
  congr 1
  funext a
  apply Fin.ext
  match a with
  | ⟨0, _⟩ => show win2_2.index t 0 * 128 + 1 * (y 0).val = (i 0).val; rw [e0, h0]; omega
  | ⟨1, _⟩ => show win2_2.index t 1 * 128 + 1 * (y 1).val = (i 1).val; rw [e1, h1]; omega

/-! ## What a point writes back -/

/-- What point `t` writes back is block `t` of the whole-array function: entry (p, q) of the block's result reads row
    `5000·t + p` of the two row-indexed arrays and column `q` of the weights, which is what `Cert.Spec.combine` reads
    at row `5000·t + p`, column `q`. -/
theorem flushed_eq (c : Dev nD) (t : Fin cfg2.N) :
    (dat2 (F := Ideal) V c).flushed 3 t
      = ((cfg2.win 3).blk t).view.read (Elt Ideal) (Cert.Spec.combine (V c main_v61) (V c main_v32) (V c main_v63)) := by
  show (cfg2.win 3).cut (grid2.coords t) ((dat2 V c).after 3 t) = _
  rw [after2_3]
  unfold out2_3
  rw [View.canon_unit_zero zero_offsets]
  simp only [View.ld_unit_zero (S := S5000x128) zero_offsets, View.ld_unit_zero (S := S128x128) zero_offsets]
  obtain ⟨-, -, -, -, -, -, e0, e1⟩ := block_index t
  funext y
  obtain ⟨p, q, rfl⟩ : ∃ (p : Fin 5000) (q : Fin 128), y = ix2 p q := ⟨y 0, y 1, eq_ix2 y⟩
  rw [View.read_apply]
  show k2_pay1 (F := Ideal) (iblk2 V c 0 t) (iblk2 V c 1 t) (iblk2 V c 2 t) (ix2 p q)
    = Cert.Spec.combine (V c main_v61) (V c main_v32) (V c main_v63) (((cfg2.win 3).blk t).view.emb (ix2 p q))
  rw [block_apply]
  unfold Cert.Spec.combine
  have r0 : ((((cfg2.win 3).blk t).view.emb (ix2 p q)) 0).val = 5000 * t.val + p.val := by
    show win2_3.index t 0 * 5000 + 1 * p.val = _; rw [e0]; omega
  have r1 : ((((cfg2.win 3).blk t).view.emb (ix2 p q)) 1).val = q.val := by
    show win2_3.index t 1 * 128 + 1 * q.val = _; rw [e1]; omega
  refine Finset.sum_congr rfl fun k _ => ?_
  rw [agg_block V c t (ix2 p k) (ix2 (n0 := 100000) (n1 := 128) ⟨_, ((((cfg2.win 3).blk t).view.emb (ix2 p q)) 0).isLt⟩ k) r0 rfl,
    h0_block V c t (ix2 p k) (ix2 (n0 := 100000) (n1 := 128) ⟨_, ((((cfg2.win 3).blk t).view.emb (ix2 p q)) 0).isLt⟩ k) r0 rfl,
    w_block V c t (ix2 k q) (ix2 (n0 := 128) (n1 := 128) k ⟨_, ((((cfg2.win 3).blk t).view.emb (ix2 p q)) 1).isLt⟩) rfl r1]

/-! ## The blocks tile the rows -/

/-- An index of the result array lies in point `t`'s block iff each coordinate lies in the block's range on its axis. -/
theorem mem_block (t : Fin cfg2.N) (i : S100000x128.Idx) :
    i ∈ ((cfg2.win 3).blk t).view.set
      ↔ ∀ a : Fin 2, win2_3.index t a * S5000x128.size a ≤ (i a).val ∧ (i a).val < win2_3.index t a * S5000x128.size a + S5000x128.size a := by
  show i ∈ ((View.whole main_v64).slice (win2_3.rect t)).set ↔ _
  rw [View.set_slice_whole, Rect.mem_set_unit]
  exact Iff.rfl

/-- Row `r` of the result lies in the block of point `r / 5000`, and every point writes its block back. -/
theorem covered (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, -, -, e0, e1⟩ := block_index t
  refine ⟨t, flush2_3 t, ?_⟩
  rw [mem_block]
  intro a
  match a with
  | ⟨0, _⟩ => show win2_3.index t 0 * 5000 ≤ (i 0).val ∧ (i 0).val < win2_3.index t 0 * 5000 + 5000; rw [e0, ht]; omega
  | ⟨1, _⟩ => show win2_3.index t 1 * 128 ≤ (i 1).val ∧ (i 1).val < win2_3.index t 1 * 128 + 128; rw [e1]; omega

/-! ## The result array after the region -/

/-- After the region the result array is `Cert.Spec.combine` of the region's three input arrays: every point writes
    back its block of that function, and the blocks cover the array. -/
theorem final (c : Dev nD) :
    (dat2 (F := Ideal) V c).arrAt 3 cfg2.N = Cert.Spec.combine (V c main_v61) (V c main_v32) (V c main_v63) :=
  (dat2 V c).arrAt_eq_of_cover 3 (Cert.Spec.combine (V c main_v61) (V c main_v32) (V c main_v63))
    (fun t _ => flushed_eq V c t) covered

end Cert.KernelIdeal.Reg2

end
-- ==== Proof.Reg3.lean ====
/-
  Region 3 of the idealized kernel program is the last dense stage, h · w + b (128 → 64 features), worked through the
  100000 rows of h in 20 blocks of 5000 rows: block t of the output is computed from block t of h and from the whole
  of w and b. On the extended reals the narrowing conversions are the identity and a matrix product into a zero
  accumulator is the plain sum over the contracted index, so entry (p, q) of a block's result is
  Σₖ h_blk[p,k]·w[k,q] + b[q]. Row p of block t of h is row 5000·t + p of h, hence block t of the output is the
  restriction to rows 5000·t … 5000·t + 4999 of the one whole-array function `Cert.Spec.lin h w b`; every row r lies
  in block r / 5000, so the 20 blocks fill the output and the array after the region is `Cert.Spec.lin h w b`.
-/
import proofs.«176975_j38817914421894_1_alg».proof.Proof.Gen.KernelIdeal.Frame
import proofs.«176975_j38817914421894_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- `Cert.Spec.lin` at an entry whose row and column are known as numbers. -/
theorem lin_apply_at (h : FVec Ideal ⟨2, ![100000, 128]⟩ .f32) (w : FVec Ideal ⟨2, ![128, 64]⟩ .f32)
    (b : FVec Ideal ⟨1, ![64]⟩ .f32) (i : (⟨2, ![100000, 64]⟩ : Shape).Idx) (r : Fin 100000) (q : Fin 64)
    (hr : (i 0).val = r.val) (hq : (i 1).val = q.val) :
    Cert.Spec.lin h w b i = (∑ k : Fin 128, h (ix2 r k) * w (ix2 k q)) + b (ix1 q) := by
  have e0 : (⟨(i 0).val, (i 0).isLt⟩ : Fin 100000) = r := Fin.ext hr
  have e1 : (⟨(i 1).val, (i 1).isLt⟩ : Fin 64) = q := Fin.ext hq
  unfold Cert.Spec.lin
  rw [e0, e1]

/-! ## One block's result at an entry -/

/-- In the product of a 5000×128 block by the 128×64 weights, the left factor's row is the result's row, -/
theorem left_row (i : S5000x64.Idx) (k : dot_S5000x128_S128x64_S5000x64_1_0_0_1_n_n.contr.Idx) :
    (dot_S5000x128_S128x64_S5000x64_1_0_0_1_n_n.lhsIdx i k 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- its column is the contracted index, -/
theorem left_col (i : S5000x64.Idx) (k : dot_S5000x128_S128x64_S5000x64_1_0_0_1_n_n.contr.Idx) :
    (dot_S5000x128_S128x64_S5000x64_1_0_0_1_n_n.lhsIdx i k 1).val = (k ⟨0, by decide⟩).val :=
  dot_S5000x128_S128x64_S5000x64_1_0_0_1_n_n.lhsIdx_val_of_single rfl i k
/-- the right factor's row is the contracted index, -/
theorem right_row (i : S5000x64.Idx) (k : dot_S5000x128_S128x64_S5000x64_1_0_0_1_n_n.contr.Idx) :
    (dot_S5000x128_S128x64_S5000x64_1_0_0_1_n_n.rhsIdx i k 0).val = (k ⟨0, by decide⟩).val :=
  dot_S5000x128_S128x64_S5000x64_1_0_0_1_n_n.rhsIdx_val_of_single rfl i k
/-- and its column is the result's column. -/
theorem right_col (i : S5000x64.Idx) (k : dot_S5000x128_S128x64_S5000x64_1_0_0_1_n_n.contr.Idx) :
    (dot_S5000x128_S128x64_S5000x64_1_0_0_1_n_n.rhsIdx i k 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product into a zero accumulator, entry (p, q): the sum over k of a[p,k]·w[k,q]. -/
theorem product_apply (a : FVec Ideal S5000x128 .bf16) (w : FVec Ideal S128x64 .bf16) (p : Fin 5000) (q : Fin 64) :
    matmul dot_S5000x128_S128x64_S5000x64_1_0_0_1_n_n none a w (constant (F := Ideal) S5000x64 .f32 0x00000000#32) (ix2 p q)
      = ∑ k : Fin 128, a (ix2 p k) * w (ix2 k q) := by
  refine (Ideal.matmul_constant_zero_apply dot_S5000x128_S128x64_S5000x64_1_0_0_1_n_n none a w (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact left_row _ _
    | ⟨1, _⟩ => exact (left_col _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (right_row _ _).trans hk
    | ⟨1, _⟩ => exact right_col _ _)
  rw [el, er]

/-- The bias laid along the rows: entry (p, q) of the 64-vector seen as one row and repeated 5000 times is b[q]. -/
theorem bias_apply (b : FVec Ideal S64 .f32) (p : Fin 5000) (q : Fin 64) :
    broadcastTo S5000x64 (shapeCast S1x64 b shapeCasts_S64_S1x64) broadcasts_S1x64_S5000x64 (ix2 p q) = b (ix1 q) :=
  (broadcastTo_1b_ab_apply _ broadcasts_S1x64_S5000x64 p q).trans (shapeCast_a_1a_apply b shapeCasts_S64_S1x64 0 q)

/-- Entry (p, q) of what the body computes from a block x of h, the weights w and the bias b: Σₖ x[p,k]·w[k,q] + b[q]. -/
theorem body_apply (x : Vec Ideal S5000x128 .f32) (w : Vec Ideal S128x64 .f32) (b : Vec Ideal S64 .f32) (p : Fin 5000) (q : Fin 64) :
    k3_pay1 (F := Ideal) x w b (ix2 p q) = (∑ k : Fin 128, x (ix2 p k) * w (ix2 k q)) + b (ix1 q) := by
  unfold k3_pay1
  refine (addf_apply _ _ _).trans ?_
  refine congrArg₂ (· + ·) ((product_apply _ _ p q).trans ?_) (bias_apply b p q)
  rw [shapeCast_self]
  rfl

/-! ## The blocks as rows of the arrays -/

theorem offsets_zero₂ : (![0, 0] : Fin 2 → Nat) = fun _ => 0 := funext fun a => by fin_cases a <;> rfl
theorem offsets_zero₁ : (![0] : Fin 1 → Nat) = fun _ => 0 := funext fun a => by fin_cases a; rfl

/-- The block indices, decided over the 20 points: at point t the blocks of h and of the output are the t-th along
    the rows and the only one along the columns; w and b have one block. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- Row p of block t of h is row 5000·t + p of h. -/
theorem rows_block_apply (c : Dev nD) (t : Fin cfg3.N) (p : Fin 5000) (k : Fin 128) (r : Fin 100000)
    (hr : r.val = 5000 * t.val + p.val) :
    (iblk3 V c 0 t : Vec Ideal S5000x128 .f32) (ix2 p k) = (V c main_v64 : S100000x128.Idx → Elt Ideal .f32) (ix2 r k) := by
  obtain ⟨e0, e1, -⟩ := block_indices t
  unfold iblk3
  rw [View.read_apply]
  show V c main_v64 _ = V c main_v64 _
  congr 1
  funext a
  apply Fin.ext
  match a with
  | ⟨0, _⟩ => show win3_0.index t (0 : Fin 2) * 5000 + 1 * p.val = r.val; omega
  | ⟨1, _⟩ => show win3_0.index t (1 : Fin 2) * 128 + 1 * k.val = k.val; omega

/-- The one block of w is w. -/
theorem weights_block_apply (c : Dev nD) (t : Fin cfg3.N) (k : Fin 128) (q : Fin 64) :
    (iblk3 V c 1 t : Vec Ideal S128x64 .f32) (ix2 k q) = (V c main_arg5 : S128x64.Idx → Elt Ideal .f32) (ix2 k q) := by
  obtain ⟨-, -, e0, e1, -⟩ := block_indices t
  unfold iblk3
  rw [View.read_apply]
  show V c main_arg5 _ = V c main_arg5 _
  congr 1
  funext a
  apply Fin.ext
  match a with
  | ⟨0, _⟩ => show win3_1.index t (0 : Fin 2) * 128 + 1 * k.val = k.val; omega
  | ⟨1, _⟩ => show win3_1.index t (1 : Fin 2) * 64 + 1 * q.val = q.val; omega

/-- The one block of b is b. -/
theorem bias_block_apply (c : Dev nD) (t : Fin cfg3.N) (q : Fin 64) :
    (iblk3 V c 2 t : Vec Ideal S64 .f32) (ix1 q) = (V c main_arg6 : S64.Idx → Elt Ideal .f32) (ix1 q) := by
  obtain ⟨-, -, -, -, e0, -⟩ := block_indices t
  unfold iblk3
  rw [View.read_apply]
  show V c main_arg6 _ = V c main_arg6 _
  congr 1
  funext a
  apply Fin.ext
  match a with
  | ⟨0, _⟩ => show win3_2.index t (0 : Fin 1) * 64 + 1 * q.val = q.val; omega

/-- Entry (p, q) of block t of the output sits at row 5000·t + p, column q of the output array. -/
theorem out_block_row (t : Fin cfg3.N) (p : Fin 5000) (q : Fin 64) :
    ((((cfg3.win 3).blk t).view.emb (ix2 p q)) 0).val = 5000 * t.val + p.val := by
  obtain ⟨-, -, -, -, -, e0, e1⟩ := block_indices t
  show win3_3.index t (0 : Fin 2) * 5000 + 1 * p.val = _
  omega
theorem out_block_col (t : Fin cfg3.N) (p : Fin 5000) (q : Fin 64) :
    ((((cfg3.win 3).blk t).view.emb (ix2 p q)) 1).val = q.val := by
  obtain ⟨-, -, -, -, -, e0, e1⟩ := block_indices t
  show win3_3.index t (1 : Fin 2) * 64 + 1 * q.val = _
  omega

/-! ## What a point writes back -/

/-- Point t writes back block t of `Cert.Spec.lin h w b`. -/
theorem block_written (c : Dev nD) (t : Fin cfg3.N) :
    (dat3 (F := Ideal) V c).flushed 3 t
      = ((cfg3.win 3).blk t).view.read (Elt Ideal) (Cert.Spec.lin (V c main_v64) (V c main_arg5) (V c main_arg6)) := by
  show (cfg3.win 3).cut (grid3.coords t) ((dat3 V c).after 3 t) = _
  rw [after3_3]
  unfold out3_3
  rw [View.canon_unit_zero offsets_zero₂]
  simp only [View.ld_unit_zero (S := S5000x128) offsets_zero₂, View.ld_unit_zero (S := S128x64) offsets_zero₂, View.ld_unit_zero (S := S64) offsets_zero₁]
  funext y
  obtain ⟨p, q, rfl⟩ : ∃ (p : Fin 5000) (q : Fin 64), y = ix2 p q := ⟨y 0, y 1, eq_ix2 y⟩
  have hN : cfg3.N = 20 := N_3
  have ht : t.val < cfg3.N := t.isLt
  rw [View.read_apply]
  show k3_pay1 (F := Ideal) (iblk3 V c 0 t) (iblk3 V c 1 t) (iblk3 V c 2 t) (ix2 p q)
    = Cert.Spec.lin (V c main_v64) (V c main_arg5) (V c main_arg6) (((cfg3.win 3).blk t).view.emb (ix2 p q))
  refine (body_apply _ _ _ p q).trans (Eq.trans ?_
    (lin_apply_at _ _ _ _ ⟨5000 * t.val + p.val, by omega⟩ q (out_block_row t p q) (out_block_col t p q)).symm)
  exact congrArg₂ (· + ·)
    (Finset.sum_congr rfl fun k _ => congrArg₂ (· * ·) (rows_block_apply V c t p k _ rfl) (weights_block_apply V c t k q))
    (bias_block_apply V c t q)

/-! ## The blocks fill the output -/

/-- An entry of the output array is in block t iff each of its coordinates is in the block's range on its axis. -/
theorem mem_block (t : Fin cfg3.N) (i : S100000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v65).slice (win3_3.rect t)).set ↔ _
  rw [View.set_slice_whole, Rect.mem_set_unit]
  exact Iff.rfl

/-- Row r of the output lies in block r / 5000, which its point writes back. -/
theorem rows_covered (i : S100000x64.Idx) :
    ∃ t : Fin cfg3.N, (cfg3.win 3).flush t = true ∧ i ∈ ((cfg3.win 3).blk t).view.set := by
  have hN : cfg3.N = 20 := N_3
  have h0 : (i 0).val < 100000 := (i 0).isLt
  have h1 : (i 1).val < 64 := (i 1).isLt
  obtain ⟨t, ht⟩ : ∃ t : Fin cfg3.N, t.val = (i 0).val / 5000 := ⟨⟨(i 0).val / 5000, by omega⟩, rfl⟩
  obtain ⟨-, -, -, -, -, e0, e1⟩ := block_indices t
  refine ⟨t, flush3_3 t, ?_⟩
  rw [mem_block]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 64 ≤ (i 1).val ∧ (i 1).val < win3_3.index t (1 : Fin 2) * 64 + 64
    omega

/-! ## The array after the region -/

/-- The output array after the 20 points is `Cert.Spec.lin` of the arrays the region found. -/
theorem final (c : Dev nD) :
    (dat3 (F := Ideal) V c).arrAt 3 cfg3.N = Cert.Spec.lin (V c main_v64) (V c main_arg5) (V c main_arg6) :=
  (dat3 V c).arrAt_eq_of_cover 3 (Cert.Spec.lin (V c main_v64) (V c main_arg5) (V c main_arg6))
    (fun t _ => block_written V c t) rows_covered

end Cert.KernelIdeal.Reg3

end
-- ==== Proof.RefSide.lean ====
/-
  The reference's four dense stages, on the extended reals, are the whole-array functions of the specification.

  Each stage of the reference is a short chain of entrywise operations around one matrix product. Read at an entry
  (r, q), a matrix product is the sum over the contracted coordinate k of the left operand at (r, k) times the right
  operand at (k, q); a bias broadcast along the rows reads the bias vector at q; a scalar broadcast reads its one
  literal word. On the extended reals the entrywise sum, product and maximum are +, * and max. What is left to see is
  that the index the reference composes for each operand is the index (r, k), (k, q) or (q) built from the
  coordinates, and that is checked one axis at a time. The two literal words of the mix and the zero of the
  rectifier stand as the same words on both sides and are never evaluated. The aggregated features entering a
  stage are carried as an arbitrary array: nothing here looks inside them.
-/
import proofs.«176975_j38817914421894_1_alg».proof.Proof.RefRead
import proofs.«176975_j38817914421894_1_alg».proof.Proof.Spec
import Idealize.ShloMosaic.Lib.ValueIdx
import Idealize.ShloMosaic.PureOps.Ideal.Laws

noncomputable section

namespace Cert.RefSide

open Cert.ReferenceIdeal Cert.ReferenceIdeal.ReadP Idealize.ShloMosaic Idealize.ShloMosaic.ValueIdx

/-! ## The composed indices are the coordinate indices

  For a product contracting the left operand's columns with the right operand's rows, entry (r, q) of the result
  reads the left operand at (r, k) and the right operand at (k, q). -/

/-- First layer, left operand: entry (r, q), term k reads the input features at (r, k). -/
theorem lidx32 (i : S100000x128.Idx) (k : Fin 512) :
    lidx_main_v32 i k = ix2 (n0 := 100000) (n1 := 512) ⟨(i 0).val, (i 0).isLt⟩ k :=
  funext fun a => Fin.ext (by match a with | ⟨0, _⟩ => rfl | ⟨1, _⟩ => rfl)

/-- First layer, right operand: entry (r, q), term k reads the weights at (k, q). -/
theorem ridx32 (i : S100000x128.Idx) (k : Fin 512) :
    ridx_main_v32 i k = ix2 (n0 := 512) (n1 := 128) k ⟨(i 1).val, (i 1).isLt⟩ :=
  funext fun a => Fin.ext (by match a with | ⟨0, _⟩ => rfl | ⟨1, _⟩ => rfl)

/-- First layer, bias: the two broadcasts (a vector to one row, the row to every row) read the bias at q. -/
theorem bidx34 (i : S100000x128.Idx) :
    idx_main_v33 (idx_main_v34 i) = ix1 (n := 128) ⟨(i 1).val, (i 1).isLt⟩ :=
  funext fun a => Fin.ext (by match a with | ⟨0, _⟩ => rfl)

/-- First mixing layer, left operand at (r, k). -/
theorem lidx57 (i : S100000x128.Idx) (k : Fin 128) :
    lidx_main_v57 i k = ix2 (n0 := 100000) (n1 := 128) ⟨(i 0).val, (i 0).isLt⟩ k :=
  funext fun a => Fin.ext (by match a with | ⟨0, _⟩ => rfl | ⟨1, _⟩ => rfl)

/-- First mixing layer, right operand at (k, q). -/
theorem ridx57 (i : S100000x128.Idx) (k : Fin 128) :
    ridx_main_v57 i k = ix2 (n0 := 128) (n1 := 128) k ⟨(i 1).val, (i 1).isLt⟩ :=
  funext fun a => Fin.ext (by match a with | ⟨0, _⟩ => rfl | ⟨1, _⟩ => rfl)

/-- Second mixing layer, left operand at (r, k). -/
theorem lidx78 (i : S100000x128.Idx) (k : Fin 128) :
    lidx_main_v78 i k = ix2 (n0 := 100000) (n1 := 128) ⟨(i 0).val, (i 0).isLt⟩ k :=
  funext fun a => Fin.ext (by match a with | ⟨0, _⟩ => rfl | ⟨1, _⟩ => rfl)

/-- Second mixing layer, right operand at (k, q). -/
theorem ridx78 (i : S100000x128.Idx) (k : Fin 128) :
    ridx_main_v78 i k = ix2 (n0 := 128) (n1 := 128) k ⟨(i 1).val, (i 1).isLt⟩ :=
  funext fun a => Fin.ext (by match a with | ⟨0, _⟩ => rfl | ⟨1, _⟩ => rfl)

/-- Output layer, left operand at (r, k). -/
theorem lidx79 (i : S100000x64.Idx) (k : Fin 128) :
    lidx_main_v79 i k = ix2 (n0 := 100000) (n1 := 128) ⟨(i 0).val, (i 0).isLt⟩ k :=
  funext fun a => Fin.ext (by match a with | ⟨0, _⟩ => rfl | ⟨1, _⟩ => rfl)

/-- Output layer, right operand at (k, q). -/
theorem ridx79 (i : S100000x64.Idx) (k : Fin 128) :
    ridx_main_v79 i k = ix2 (n0 := 128) (n1 := 64) k ⟨(i 1).val, (i 1).isLt⟩ :=
  funext fun a => Fin.ext (by match a with | ⟨0, _⟩ => rfl | ⟨1, _⟩ => rfl)

/-- Output layer, bias: the two broadcasts read the bias at q. -/
theorem bidx81 (i : S100000x64.Idx) :
    idx_main_v80 (idx_main_v81 i) = ix1 (n := 64) ⟨(i 1).val, (i 1).isLt⟩ :=
  funext fun a => Fin.ext (by match a with | ⟨0, _⟩ => rfl)

/-! ## The four stages -/

/-- The first layer: entry (r, q) is max (Σₖ x[r,k]·w[k,q] + b[q]) 0. -/
theorem stage1 (x0 : (⟨S100000x512, .f32⟩ : BufTy).Contents (Elt Ideal)) (x2 : (⟨S512x128, .f32⟩ : BufTy).Contents (Elt Ideal)) (x3 : (⟨S128, .f32⟩ : BufTy).Contents (Elt Ideal)) :
    val_main_v36 (F := Ideal) x0 x2 x3 = Cert.Spec.linRelu x0 x2 x3 := by
  funext i
  rw [val_main_v36_apply, val_main_v35_apply, val_main_v32_apply, val_main_v34_apply, val_main_v33_apply,
    val_main_call1_v0_apply, val_main_call1_cst_apply, bidx34]
  simp only [lidx32, ridx32, Ideal.addf_def, Ideal.maximumf_def, Ideal.ofBits_def]
  unfold Cert.Spec.linRelu
  rfl

/-- The first mixing layer: entry (r, q) is Σₖ (c₉·a[r,k] + c₁·h[r,k])·w[k,q], with a the first aggregation,
    h the first layer's output and w the first of the two stacked weight matrices. -/
theorem stage2 (x0 : (⟨S100000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S2x128x128, .f32⟩ : BufTy).Contents (Elt Ideal)) :
    val_main_v57 (F := Ideal) x0 x1 x2 x3 x4
      = Cert.Spec.combine (val_main_v49 (F := Ideal) x0 x1 x2 x3) (val_main_v36 (F := Ideal) x0 x2 x3)
          (val_main_v56 (F := Ideal) x4) := by
  funext i
  rw [val_main_v57_apply]
  unfold Cert.Spec.combine
  -- both sides are sums over the contracted coordinate k; compare them term by term
  refine Finset.sum_congr rfl fun k _ => ?_
  rw [val_main_v54_apply, val_main_v51_apply, val_main_v53_apply, val_main_v50_apply, val_main_v52_apply,
    val_main_cst_10_apply, val_main_cst_11_apply, lidx57, ridx57]
  generalize val_main_v49 (F := Ideal) x0 x1 x2 x3 = a
  generalize val_main_v36 (F := Ideal) x0 x2 x3 = h
  generalize val_main_v56 (F := Ideal) x4 = w
  -- on the extended reals the entrywise sum and product are + and *, and a literal is its word
  rfl

/-- The second mixing layer: the same formula, with the second aggregation and the second weight matrix. -/
theorem stage3 (x0 : (⟨S100000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S2x128x128, .f32⟩ : BufTy).Contents (Elt Ideal)) :
    val_main_v78 (F := Ideal) x0 x1 x2 x3 x4
      = Cert.Spec.combine (val_main_v70 (F := Ideal) x0 x1 x2 x3 x4) (val_main_v36 (F := Ideal) x0 x2 x3)
          (val_main_v77 (F := Ideal) x4) := by
  funext i
  rw [val_main_v78_apply]
  unfold Cert.Spec.combine
  refine Finset.sum_congr rfl fun k _ => ?_
  rw [val_main_v75_apply, val_main_v72_apply, val_main_v74_apply, val_main_v71_apply, val_main_v73_apply,
    val_main_cst_15_apply, val_main_cst_16_apply, lidx78, ridx78]
  generalize val_main_v70 (F := Ideal) x0 x1 x2 x3 x4 = a
  generalize val_main_v36 (F := Ideal) x0 x2 x3 = h
  generalize val_main_v77 (F := Ideal) x4 = w
  rfl

/-- The output layer: entry (r, q) is Σₖ g[r,k]·w[k,q] + b[q], with g the second mixing layer's output. -/
theorem stage4 (x0 : (⟨S100000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S2x128x128, .f32⟩ : BufTy).Contents (Elt Ideal)) (x5 : (⟨S128x64, .f32⟩ : BufTy).Contents (Elt Ideal)) (x6 : (⟨S64, .f32⟩ : BufTy).Contents (Elt Ideal)) :
    val_main_v82 (F := Ideal) x0 x1 x2 x3 x4 x5 x6
      = Cert.Spec.lin (val_main_v78 (F := Ideal) x0 x1 x2 x3 x4) x5 x6 := by
  funext i
  rw [val_main_v82_apply, val_main_v79_apply, val_main_v81_apply, val_main_v80_apply, bidx81]
  generalize val_main_v78 (F := Ideal) x0 x1 x2 x3 x4 = g
  simp only [lidx79, ridx79, Ideal.addf_def]
  unfold Cert.Spec.lin
  rfl

end Cert.RefSide

end
-- ==== Proof.Chain.lean ====
/-
  The kernel program's buffers at each boundary between a host stretch and a dense stage, from the launch to the
  return, each as the reference's stage value of the launched arguments.
  The walk alternates two kinds of step. Across a host stretch the buffers it writes take the reference's stage values
  because the buffers it reads held them (the stretch lemmas), and every other buffer keeps its contents. Across a dense
  stage the output array becomes the stage's whole-array function of its input arrays (the region lemmas: the blocks of
  5000 rows tile the 100000 rows), which is the reference's matrix product of the same operands, entry by entry a sum over
  the contracted index; the arrays the stage only reads, and every buffer outside it, keep their contents.
  At the last boundary the two results hold the reference's two results.
-/
import proofs.«176975_j38817914421894_1_alg».proof.Proof.HostStretch
import proofs.«176975_j38817914421894_1_alg».proof.Proof.Reg0
import proofs.«176975_j38817914421894_1_alg».proof.Proof.Reg1
import proofs.«176975_j38817914421894_1_alg».proof.Proof.Reg2
import proofs.«176975_j38817914421894_1_alg».proof.Proof.Reg3
import proofs.«176975_j38817914421894_1_alg».proof.Proof.RefSide

set_option maxRecDepth 16384

noncomputable section

namespace Cert.KernelIdeal.Chain

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The launched arguments, typed as the reference's stages take them -/

abbrev x0 (c : Dev nD) : (⟨Cert.ReferenceIdeal.S100000x512, .f32⟩ : BufTy).Contents (Elt Ideal) := m ((c : Thread nD τ).loc main_arg0)
abbrev x1 (c : Dev nD) : (⟨Cert.ReferenceIdeal.S2x1600000, .i32⟩ : BufTy).Contents (Elt Ideal) := m ((c : Thread nD τ).loc main_arg1)
abbrev x2 (c : Dev nD) : (⟨Cert.ReferenceIdeal.S512x128, .f32⟩ : BufTy).Contents (Elt Ideal) := m ((c : Thread nD τ).loc main_arg2)
abbrev x3 (c : Dev nD) : (⟨Cert.ReferenceIdeal.S128, .f32⟩ : BufTy).Contents (Elt Ideal) := m ((c : Thread nD τ).loc main_arg3)
abbrev x4 (c : Dev nD) : (⟨Cert.ReferenceIdeal.S2x128x128, .f32⟩ : BufTy).Contents (Elt Ideal) := m ((c : Thread nD τ).loc main_arg4)
abbrev x5 (c : Dev nD) : (⟨Cert.ReferenceIdeal.S128x64, .f32⟩ : BufTy).Contents (Elt Ideal) := m ((c : Thread nD τ).loc main_arg5)
abbrev x6 (c : Dev nD) : (⟨Cert.ReferenceIdeal.S64, .f32⟩ : BufTy).Contents (Elt Ideal) := m ((c : Thread nD τ).loc main_arg6)

/-! ## Up to the first dense stage -/

/-- The per-node factor after the second stretch. -/
theorem b2_factor (c : Dev nD) : W2 m ρ c (Proc.devRef .tc main_v16) = val_main_v16 (x1 m c) :=
  HostStretch.s2_factor (W1 m ρ c) (x1 m c) (HostStretch.s1_degPos (W0 m ρ c)) (HostStretch.s1_rsqrtDeg (W0 m ρ c))
    (HostStretch.s1_zero (W0 m ρ c))

theorem b2_row (c : Dev nD) : W2 m ρ c (Proc.devRef .tc main_v3) = val_main_v3 (x1 m c) :=
  (HostStretch.s2_v3 (W1 m ρ c)).trans (HostStretch.s1_row (W0 m ρ c))

theorem b2_col (c : Dev nD) : W2 m ρ c (Proc.devRef .tc main_v6) = val_main_v6 (x1 m c) :=
  (HostStretch.s2_v6 (W1 m ρ c)).trans (HostStretch.s1_col (W0 m ρ c))

/-- The edge weights at the first dense stage's entry. -/
theorem b3_weight (c : Dev nD) : W3 m ρ c (Proc.devRef .tc main_v31) = val_main_v31 (x1 m c) :=
  HostStretch.s3_weight (W2 m ρ c) (x1 m c) (b2_factor m ρ c) (b2_row m ρ c) (b2_col m ρ c)

theorem b3_row (c : Dev nD) : W3 m ρ c (Proc.devRef .tc main_v3) = val_main_v3 (x1 m c) :=
  (HostStretch.s3_v3 (W2 m ρ c)).trans (b2_row m ρ c)

theorem b3_col (c : Dev nD) : W3 m ρ c (Proc.devRef .tc main_v6) = val_main_v6 (x1 m c) :=
  (HostStretch.s3_v6 (W2 m ρ c)).trans (b2_col m ρ c)

/-- No host stretch before the first dense stage writes an argument. -/
theorem b3_arg0 (c : Dev nD) : W3 m ρ c (Proc.devRef .tc main_arg0) = x0 m c :=
  (HostStretch.s3_arg0 (W2 m ρ c)).trans ((HostStretch.s2_arg0 (W1 m ρ c)).trans (HostStretch.s1_arg0 (W0 m ρ c)))

/-- No host stretch before the first dense stage writes an argument. -/
theorem b3_arg2 (c : Dev nD) : W3 m ρ c (Proc.devRef .tc main_arg2) = x2 m c :=
  (HostStretch.s3_arg2 (W2 m ρ c)).trans ((HostStretch.s2_arg2 (W1 m ρ c)).trans (HostStretch.s1_arg2 (W0 m ρ c)))

/-- No host stretch before the first dense stage writes an argument. -/
theorem b3_arg3 (c : Dev nD) : W3 m ρ c (Proc.devRef .tc main_arg3) = x3 m c :=
  (HostStretch.s3_arg3 (W2 m ρ c)).trans ((HostStretch.s2_arg3 (W1 m ρ c)).trans (HostStretch.s1_arg3 (W0 m ρ c)))

/-- No host stretch before the first dense stage writes an argument. -/
theorem b3_arg4 (c : Dev nD) : W3 m ρ c (Proc.devRef .tc main_arg4) = x4 m c :=
  (HostStretch.s3_arg4 (W2 m ρ c)).trans ((HostStretch.s2_arg4 (W1 m ρ c)).trans (HostStretch.s1_arg4 (W0 m ρ c)))

/-! ## The first dense stage and the first aggregation -/

/-- After the first dense stage its output array holds `relu (x · w₁ + b₁)`. -/
theorem b4_h (c : Dev nD) : W4 m ρ c (Proc.devRef .tc main_v32) = val_main_v36 (x0 m c) (x2 m c) (x3 m c) := by
  refine (W4_arr m ρ c 3).trans ?_
  rw [Reg0.final (V3 m ρ) c]
  show Cert.Spec.linRelu (W3 m ρ c (Proc.devRef .tc main_arg0)) (W3 m ρ c (Proc.devRef .tc main_arg2)) (W3 m ρ c (Proc.devRef .tc main_arg3)) = _
  rw [b3_arg0, b3_arg2, b3_arg3]
  exact (Cert.RefSide.stage1 _ _ _).symm

theorem b4_weight (c : Dev nD) : W4 m ρ c (Proc.devRef .tc main_v31) = val_main_v31 (x1 m c) :=
  (W4_of_ne m ρ c main_v31 (by decide)).trans (b3_weight m ρ c)
theorem b4_row (c : Dev nD) : W4 m ρ c (Proc.devRef .tc main_v3) = val_main_v3 (x1 m c) :=
  (W4_of_ne m ρ c main_v3 (by decide)).trans (b3_row m ρ c)
theorem b4_col (c : Dev nD) : W4 m ρ c (Proc.devRef .tc main_v6) = val_main_v6 (x1 m c) :=
  (W4_of_ne m ρ c main_v6 (by decide)).trans (b3_col m ρ c)
theorem b4_arg4 (c : Dev nD) : W4 m ρ c (Proc.devRef .tc main_arg4) = x4 m c :=
  (W4_of_ne m ρ c main_arg4 (by decide)).trans (b3_arg4 m ρ c)

/-- The first layer's aggregated features at the second dense stage's entry. -/
theorem b5_agg (c : Dev nD) : W5 m ρ c (Proc.devRef .tc main_v45) = val_main_v49 (x0 m c) (x1 m c) (x2 m c) (x3 m c) :=
  HostStretch.s5_agg (W4 m ρ c) (x0 m c) (x1 m c) (x2 m c) (x3 m c) (b4_weight m ρ c) (b4_row m ρ c) (b4_col m ρ c) (b4_h m ρ c)

theorem b5_w (c : Dev nD) : W5 m ρ c (Proc.devRef .tc main_v47) = val_main_v56 (x4 m c) :=
  (HostStretch.s5_w (W4 m ρ c)).trans (congrArg (val_main_v56 (F := Ideal)) (b4_arg4 m ρ c))

theorem b5_h (c : Dev nD) : W5 m ρ c (Proc.devRef .tc main_v32) = val_main_v36 (x0 m c) (x2 m c) (x3 m c) :=
  (HostStretch.s5_v32 (W4 m ρ c)).trans (b4_h m ρ c)
theorem b5_weight (c : Dev nD) : W5 m ρ c (Proc.devRef .tc main_v31) = val_main_v31 (x1 m c) :=
  (HostStretch.s5_v31 (W4 m ρ c)).trans (b4_weight m ρ c)
theorem b5_row (c : Dev nD) : W5 m ρ c (Proc.devRef .tc main_v3) = val_main_v3 (x1 m c) :=
  (HostStretch.s5_v3 (W4 m ρ c)).trans (b4_row m ρ c)
theorem b5_col (c : Dev nD) : W5 m ρ c (Proc.devRef .tc main_v6) = val_main_v6 (x1 m c) :=
  (HostStretch.s5_v6 (W4 m ρ c)).trans (b4_col m ρ c)
theorem b5_arg4 (c : Dev nD) : W5 m ρ c (Proc.devRef .tc main_arg4) = x4 m c :=
  (HostStretch.s5_arg4 (W4 m ρ c)).trans (b4_arg4 m ρ c)

/-! ## The second dense stage and the second aggregation -/

/-- After the second dense stage its output array holds `(c₉ · agg₁ + c₁ · h) · W₀`. -/
theorem b6_h1 (c : Dev nD) : W6 m ρ c (Proc.devRef .tc main_v48) = val_main_v57 (x0 m c) (x1 m c) (x2 m c) (x3 m c) (x4 m c) := by
  refine (W6_arr m ρ c 3).trans ?_
  rw [Reg1.final (V5 m ρ) c]
  show Cert.Spec.combine (W5 m ρ c (Proc.devRef .tc main_v45)) (W5 m ρ c (Proc.devRef .tc main_v32)) (W5 m ρ c (Proc.devRef .tc main_v47)) = _
  rw [b5_agg, b5_h, b5_w]
  exact (Cert.RefSide.stage2 _ _ _ _ _).symm

/-- The second dense stage only reads the first layer's features (its second input window). -/
theorem b6_h (c : Dev nD) : W6 m ρ c (Proc.devRef .tc main_v32) = val_main_v36 (x0 m c) (x2 m c) (x3 m c) :=
  ((W6_arr m ρ c 1).trans (((dat1 (V5 m ρ) c).arrAt_in 1 rfl _).trans (A_eq1 (V5 m ρ) c 1))).trans (b5_h m ρ c)
theorem b6_weight (c : Dev nD) : W6 m ρ c (Proc.devRef .tc main_v31) = val_main_v31 (x1 m c) :=
  (W6_of_ne m ρ c main_v31 (by decide)).trans (b5_weight m ρ c)
theorem b6_row (c : Dev nD) : W6 m ρ c (Proc.devRef .tc main_v3) = val_main_v3 (x1 m c) :=
  (W6_of_ne m ρ c main_v3 (by decide)).trans (b5_row m ρ c)
theorem b6_col (c : Dev nD) : W6 m ρ c (Proc.devRef .tc main_v6) = val_main_v6 (x1 m c) :=
  (W6_of_ne m ρ c main_v6 (by decide)).trans (b5_col m ρ c)
theorem b6_arg4 (c : Dev nD) : W6 m ρ c (Proc.devRef .tc main_arg4) = x4 m c :=
  (W6_of_ne m ρ c main_arg4 (by decide)).trans (b5_arg4 m ρ c)

/-- The second layer's aggregated features at the third dense stage's entry. -/
theorem b7_agg (c : Dev nD) : W7 m ρ c (Proc.devRef .tc main_v61) = val_main_v70 (x0 m c) (x1 m c) (x2 m c) (x3 m c) (x4 m c) :=
  HostStretch.s7_agg (W6 m ρ c) (x0 m c) (x1 m c) (x2 m c) (x3 m c) (x4 m c) (b6_weight m ρ c) (b6_row m ρ c) (b6_col m ρ c) (b6_h1 m ρ c)

theorem b7_w (c : Dev nD) : W7 m ρ c (Proc.devRef .tc main_v63) = val_main_v77 (x4 m c) :=
  (HostStretch.s7_w (W6 m ρ c)).trans (congrArg (val_main_v77 (F := Ideal)) (b6_arg4 m ρ c))

theorem b7_h (c : Dev nD) : W7 m ρ c (Proc.devRef .tc main_v32) = val_main_v36 (x0 m c) (x2 m c) (x3 m c) :=
  (HostStretch.s7_v32 (W6 m ρ c)).trans (b6_h m ρ c)

/-! ## The third and fourth dense stages -/

/-- After the third dense stage its output array holds `(c₉ · agg₂ + c₁ · h) · W₁`: the first result. -/
theorem b8_h2 (c : Dev nD) : W8 m ρ c (Proc.devRef .tc main_v64) = val_main_v78 (x0 m c) (x1 m c) (x2 m c) (x3 m c) (x4 m c) := by
  refine (W8_arr m ρ c 3).trans ?_
  rw [Reg2.final (V7 m ρ) c]
  show Cert.Spec.combine (W7 m ρ c (Proc.devRef .tc main_v61)) (W7 m ρ c (Proc.devRef .tc main_v32)) (W7 m ρ c (Proc.devRef .tc main_v63)) = _
  rw [b7_agg, b7_h, b7_w]
  exact (Cert.RefSide.stage3 _ _ _ _ _).symm

/-- The last stage only reads its two parameter arrays, and they end as launched; so they were as launched at its entry. -/
theorem b8_arg5 (c : Dev nD) : W8 m ρ c (Proc.devRef .tc main_arg5) = x5 m c :=
  ((W9_arr m ρ c 1).trans (((dat3 (V8 m ρ) c).arrAt_in 1 rfl _).trans (A_eq3 (V8 m ρ) c 1))).symm.trans (W9_main_arg5 m ρ c)
theorem b8_arg6 (c : Dev nD) : W8 m ρ c (Proc.devRef .tc main_arg6) = x6 m c :=
  ((W9_arr m ρ c 2).trans (((dat3 (V8 m ρ) c).arrAt_in 2 rfl _).trans (A_eq3 (V8 m ρ) c 2))).symm.trans (W9_main_arg6 m ρ c)

/-- After the last dense stage its output array holds `h₂ · w₂ + b₂`: the second result. -/
theorem b9_logits (c : Dev nD) :
    W9 m ρ c (Proc.devRef .tc main_v65) = val_main_v82 (x0 m c) (x1 m c) (x2 m c) (x3 m c) (x4 m c) (x5 m c) (x6 m c) := by
  refine (W9_arr m ρ c 3).trans ?_
  rw [Reg3.final (V8 m ρ) c]
  show Cert.Spec.lin (W8 m ρ c (Proc.devRef .tc main_v64)) (W8 m ρ c (Proc.devRef .tc main_arg5)) (W8 m ρ c (Proc.devRef .tc main_arg6)) = _
  rw [b8_h2, b8_arg5, b8_arg6]
  exact (Cert.RefSide.stage4 _ _ _ _ _ _ _).symm

/-- The last stage only reads the first result, so it ends as the third stage left it. -/
theorem b9_h2 (c : Dev nD) : W9 m ρ c (Proc.devRef .tc main_v64) = val_main_v78 (x0 m c) (x1 m c) (x2 m c) (x3 m c) (x4 m c) :=
  ((W9_arr m ρ c 0).trans (((dat3 (V8 m ρ) c).arrAt_in 0 rfl _).trans (A_eq3 (V8 m ρ) c 0))).trans (b8_h2 m ρ c)

end Cert.KernelIdeal.Chain

end
-- ==== Proof.lean ====
/-
  A two-layer graph network over 100000 nodes — `h = relu (x · w₁ + b₁)`, twice `h ← (c₉ · Â h + c₁ · h₀) · W_l` with
  `Â` the degree-normalised adjacency with self-loops applied by a gather, a scaling and a scatter-add, then
  `logits = h · w₂ + b₂` — computed two ways: the kernel program runs its four dense stages as Pallas regions over
  blocks of 5000 rows, the reference as whole matrix products on the host; the host operations around the dense stages
  are the same in both.
  On the extended reals the two agree entry by entry, with nothing to assume of the inputs: a change of float format
  is the identity, a matrix product into a zero accumulator and the host's `dot_general` are the same sum over the
  contracted index, the two mixing literals are the same binary words on both sides, and row r of every dense stage
  depends on row r of its row-indexed operands only, so the 20 blocks of 5000 rows tile the whole product.
  The proof follows the kernel program's buffers from boundary to boundary (Proof/Chain.lean): the host stretches by
  Proof/HostStretch.lean, the dense stages by Proof/Reg0.lean … Reg3.lean over the whole-array functions of Proof/Spec.lean,
  which Proof/RefSide.lean shows to be the reference's stages. The kernel's run with its two results named is
  Proof/KernelRun.lean, the reference's Proof/RefRun.lean with its stages in Proof/RefRead.lean. The three frames are the
  generated frame certificates and the reference's run; the idealization rewrote nothing, so `preserves` is trivial.
-/
import proofs.«176975_j38817914421894_1_alg».proof.Defs
import proofs.«176975_j38817914421894_1_alg».proof.Proof.Gen.Kernel
import proofs.«176975_j38817914421894_1_alg».proof.Proof.Gen.Kernel.Frame
import proofs.«176975_j38817914421894_1_alg».proof.Proof.Gen.KernelIdeal
import proofs.«176975_j38817914421894_1_alg».proof.Proof.Gen.KernelIdeal.Frame
import proofs.«176975_j38817914421894_1_alg».proof.Proof.Gen.ReferenceIdeal
import proofs.«176975_j38817914421894_1_alg».proof.Proof.Gen.Pre_finite_inputs
import proofs.«176975_j38817914421894_1_alg».proof.Proof.KernelRun
import proofs.«176975_j38817914421894_1_alg».proof.Proof.RefRun
import proofs.«176975_j38817914421894_1_alg».proof.Proof.RefRead
import proofs.«176975_j38817914421894_1_alg».proof.Proof.Chain
import Idealize.ShloMosaic.Adequacy
import Idealize.ShloMosaic.Init

noncomputable section

namespace Cert.Proof

open Idealize.ShloMosaic Idealize.SL.Sem

/-- The word-level kernel program terminates, nothing faulting, its arguments unchanged. -/
theorem frame_kernel : Cert.frame_Kernel := fun m ρ _ => Cert.Kernel.Gen.frame m ρ

/-- The same of its reading on the extended reals. -/
theorem frame_kernelIdeal : Cert.frame_KernelIdeal := fun m ρ _ => Cert.KernelIdeal.Gen.frame m ρ

/-- The reference's run with its results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- Both programs end with the reference's two stages of the launched arguments in their two results. -/
theorem algebraic : Cert.algebraic_KernelIdeal_ReferenceIdeal := by
  intro m ρ m' ρ' _ hagree
  refine ⟨fun c => Cert.ReferenceIdeal.ReadP.val_main_v78 (F := Ideal) (Cert.KernelIdeal.Chain.x0 m c) (Cert.KernelIdeal.Chain.x1 m c) (Cert.KernelIdeal.Chain.x2 m c)
      (Cert.KernelIdeal.Chain.x3 m c) (Cert.KernelIdeal.Chain.x4 m c),
    fun c => Cert.ReferenceIdeal.ReadP.val_main_v82 (F := Ideal) (Cert.KernelIdeal.Chain.x0 m c) (Cert.KernelIdeal.Chain.x1 m c) (Cert.KernelIdeal.Chain.x2 m c)
      (Cert.KernelIdeal.Chain.x3 m c) (Cert.KernelIdeal.Chain.x4 m c) (Cert.KernelIdeal.Chain.x5 m c) (Cert.KernelIdeal.Chain.x6 m c), ?_, ?_⟩
  · exact (θ_run Cert.KernelIdeal.defs _ _).mono
      (fun r h c => ⟨(h c).1.trans (Cert.KernelIdeal.Chain.b9_h2 m ρ c), (h c).2.1.trans (Cert.KernelIdeal.Chain.b9_logits m ρ c), (h c).2.2⟩)
      (Cert.KernelIdeal.RunV.run m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · rw [Cert.ReferenceIdeal.ReadP.val_main_v78_eq, (hagree c).1, (hagree c).2.1, (hagree c).2.2.1, (hagree c).2.2.2.1, (hagree c).2.2.2.2.1]
    · rw [Cert.ReferenceIdeal.ReadP.val_main_v82_eq, (hagree c).1, (hagree c).2.1, (hagree c).2.2.1, (hagree c).2.2.2.1, (hagree c).2.2.2.2.1,
        (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
